-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1000x1024 : Shape := ⟨2, ![1000, 1024]⟩
abbrev S32768 : Shape := ⟨1, ![32768]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_

variable [Facts]

def fn {F : FTy → Type} [FloatOps F] (main_arg0 : FVec F S65536x1024 .f32) (main_arg1 : FVec F S1000x1024 .f32) (main_arg2 : FVec F S1000x1024 .f32) (main_arg3 : IVec S32768 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1000x1024 .f32 := Host.absf main_arg1
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_v9 : FVec F S1000x1024 .f32 := Host.absf main_arg2
  let main_cst_2 : FVec F S_ .f32 := constant S_ .f32 0x7F800000#32
  let main_v10 : FVec F S1000x1024 .f32 := broadcastInDim S1000x1024 ![] bcast_S_S1000x1024 main_cst_2
  let main_v11 : IVec S1000x1024 1 := cmpf .olt main_v9 main_v10
  let main_c_3 : IVec S_ 1 := constantI S_ 1 1#1
  let main_v12 : IVec S_ 1 := (fun x v => Host.reduce IntOp.andi x v reducesTo_S1000x1024_S_d0_1 h_S_) main_v11 main_c_3
  let main_v13 : IVec S_ 1 := andi main_v8 main_v12
  main_v13
-- ==== Kernel.lean ====
abbrev S65536x1024 : Shape := ⟨2, ![65536, 1024]⟩
abbrev S1000x1024 : Shape := ⟨2, ![1000, 1024]⟩
abbrev S32768 : Shape := ⟨1, ![32768]⟩
abbrev S1024x1024 : Shape := ⟨2, ![1024, 1024]⟩
abbrev S16x1024 : Shape := ⟨2, ![16, 1024]⟩
abbrev S2048 : Shape := ⟨1, ![2048]⟩
abbrev S2048x512 : Shape := ⟨2, ![2048, 512]⟩
abbrev S1024x512 : Shape := ⟨2, ![1024, 512]⟩
abbrev S8x1024 : Shape := ⟨2, ![8, 1024]⟩
abbrev S2048x1024 : Shape := ⟨2, ![2048, 1024]⟩
abbrev S2048x1 : Shape := ⟨2, ![2048, 1]⟩
abbrev S8x2048 : Shape := ⟨2, ![8, 2048]⟩
abbrev S1x1000 : Shape := ⟨2, ![1, 1000]⟩
abbrev S1000 : Shape := ⟨1, ![1000]⟩
abbrev S_ : Shape := ⟨0, ![]⟩
abbrev S1000x1 : Shape := ⟨2, ![1000, 1]⟩

abbrev nBuf : Space → Nat
  | .hbm => 52
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1000x1024, .f32⟩
  | .hbm, ⟨2, _⟩ => ⟨S1000x1024, .f32⟩
  | .hbm, ⟨3, _⟩ => ⟨S32768, .i32⟩
  | .hbm, ⟨4, _⟩ => ⟨S1024x1024, .f32⟩
  | .hbm, ⟨5, _⟩ => ⟨S16x1024, .f32⟩
  | .hbm, ⟨6, _⟩ => ⟨S1000x1024, .f32⟩
  | .hbm, ⟨7, _⟩ => ⟨S1x1000, .f32⟩
  | .hbm, ⟨8, _⟩ => ⟨S1000, .f32⟩
  | .hbm, ⟨9, _⟩ => ⟨S_, .f32⟩
  | .hbm, ⟨10, _⟩ => ⟨S1000, .f32⟩
  | .hbm, ⟨11, _⟩ => ⟨S1000, .f32⟩
  | .hbm, ⟨12, _⟩ => ⟨S_, .f32⟩
  | .hbm, ⟨13, _⟩ => ⟨S1000, .f32⟩
  | .hbm, ⟨14, _⟩ => ⟨S1000, .i1⟩
  | .hbm, ⟨15, _⟩ => ⟨S_, .f32⟩
  | .hbm, ⟨16, _⟩ => ⟨S1000, .f32⟩
  | .hbm, ⟨17, _⟩ => ⟨S1000, .f32⟩
  | .hbm, ⟨18, _⟩ => ⟨S1000x1, .f32⟩
  | .hbm, ⟨19, _⟩ => ⟨S1000x1024, .f32⟩
  | .hbm, ⟨20, _⟩ => ⟨S1000x1024, .f32⟩
  | .hbm, ⟨21, _⟩ => ⟨S_, .f32⟩
  | .hbm, ⟨22, _⟩ => ⟨S1000x1024, .f32⟩
  | .hbm, ⟨23, _⟩ => ⟨S1000x1024, .f32⟩
  | .hbm, ⟨24, _⟩ => ⟨S_, .f32⟩
  | .hbm, ⟨25, _⟩ => ⟨S1000x1024, .f32⟩
  | .hbm, ⟨26, _⟩ => ⟨S1000x1024, .f32⟩
  | .hbm, ⟨27, _⟩ => ⟨S1000x1024, .f32⟩
  | .hbm, ⟨28, _⟩ => ⟨S1000x1024, .f32⟩
  | .hbm, ⟨29, _⟩ => ⟨S_, .f32⟩
  | .hbm, ⟨30, _⟩ => ⟨S1000, .f32⟩
  | .hbm, ⟨31, _⟩ => ⟨S1000x1, .f32⟩
  | .hbm, ⟨32, _⟩ => ⟨S1000x1, .f32⟩
  | .hbm, ⟨33, _⟩ => ⟨S1000x1024, .f32⟩
  | .hbm, ⟨34, _⟩ => ⟨S1000x1024, .f32⟩
  | .hbm, ⟨35, _⟩ => ⟨S1000x1, .i1⟩
  | .hbm, ⟨36, _⟩ => ⟨S1000x1024, .i1⟩
  | .hbm, ⟨37, _⟩ => ⟨S1000x1024, .f32⟩
  | .hbm, ⟨38, _⟩ => ⟨S1000x1024, .f32⟩
  | .hbm, ⟨39, _⟩ => ⟨S1000x1024, .f32⟩
  | .hbm, ⟨40, _⟩ => ⟨S_, .f32⟩
  | .hbm, ⟨41, _⟩ => ⟨S1000, .f32⟩
  | .hbm, ⟨42, _⟩ => ⟨S1000, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1000, .f32⟩
  | .hbm, ⟨48, _⟩ => ⟨S1000, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S2048, .i32⟩
  | .local _ .vmem, ⟨1, _⟩ => ⟨S2048, .i32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .f32⟩
  | .local _ .vmem, ⟨7, _⟩ => ⟨S1024x512, .f32⟩
  | .local _ .vmem, ⟨8, _⟩ => ⟨S8x1024, .f32⟩
  | .local _ .vmem, ⟨9, _⟩ => ⟨S8x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1024x512_S1024x512_0_0 : ∀ a, (![0, 0] : Fin 2 → Nat) a + S1024x512.size a ≤ S1024x512.size a
  h_S1024x512 : 0 < S1024x512.numel
  inb_S8x1024_S8x1024_0_0 : ∀ a, (![0, 0] : Fin 2 → Nat) a + S8x1024.size a ≤ S8x1024.size a
  h_S8x1024 : 0 < S8x1024.numel
  inb_S2048_S2048_0 : ∀ a, (![0] : Fin 1 → Nat) a + S2048.size a ≤ S2048.size a
  h_S2048 : 0 < S2048.numel
  iota_S2048x1024_d1_w32 : S2048x1024.Iotas .tc 32 [1]
  shapeCasts_S2048_S2048x1 : S2048.ShapeCasts S2048x1
  broadcasts_S2048x1_S2048x1024 : S2048x1.Broadcasts S2048x1024
  natLt_1_32 : 1 < 32
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S1024x512_S1024x512 : S1024x512.ShapeCasts S1024x512
  shapeCasts_S8x1024_S8x1024 : S8x1024.ShapeCasts S8x1024
  slices_S1024x1024_S1000x1024_0_0 : S1024x1024.Slices ![0, 0] S1000x1024
  slices_S16x1024_S1x1000_0_0 : S16x1024.Slices ![0, 0] S1x1000
  shapeCasts_S1x1000_S1000 : S1x1000.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x1024_0_1 : S1000x1.BroadcastsInDim S1000x1024 (![0, 1] : Fin 2 → Fin S1000x1024.rank)
  bcast_S_S1000x1024 : S_.BroadcastsInDim S1000x1024 (![] : Fin 0 → Fin S1000x1024.rank)
  reducesTo_S1000x1024_S1000_d1 : S1000x1024.ReducesTo [1] S1000
  h_S_ : 0 < S_.numel
  reducesTo_S1000_S_d0 : S1000.ReducesTo [0] S_
  dot_S2048x1024_S2048x512_S1024x512_0_0_1_1_n_n_wf : DotDims.WF S2048x1024 S2048x512 S1024x512 [0] [0] [1] [1] [] []
  dot_S8x2048_S2048x1024_S8x1024_1_0_0_1_n_n_wf : DotDims.WF S8x2048 S2048x1024 S8x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S32768.size a
  hwx0_0 : ∀ i : grid0.Coords, EltTy.bits .i32 = 32 ∨ (Rect.block (s := S32768) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x1024.size a
  hwx0_1 : ∀ i : grid0.Coords, EltTy.bits .f32 = 32 ∨ (Rect.block (s := S65536x1024) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x1024.size a
  hwx0_2 : ∀ i : grid0.Coords, EltTy.bits .f32 = 32 ∨ (Rect.block (s := S65536x1024) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x1024.size a
  hwx0_3 : ∀ i : grid0.Coords, EltTy.bits .f32 = 32 ∨ (Rect.block (s := S1024x1024) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S16x1024.size a
  hwx0_4 : ∀ i : grid0.Coords, EltTy.bits .f32 = 32 ∨ (Rect.block (s := S16x1024) S8x1024.size (cc0_transform_4 i) (hinb0_4 i)).WholeWords (EltTy.packing .f32)

variable [Facts₀]

def dot_S2048x1024_S2048x512_S1024x512_0_0_1_1_n_n : DotDims S2048x1024 S2048x512 S1024x512 where
  lhsContracting := [0]
  rhsContracting := [0]
  lhsNonContracting := [1]
  rhsNonContracting := [1]
  lhsBatch := []
  rhsBatch := []
  wf := dot_S2048x1024_S2048x512_S1024x512_0_0_1_1_n_n_wf
def dot_S8x2048_S2048x1024_S8x1024_1_0_0_1_n_n : DotDims S8x2048 S2048x1024 S8x1024 where
  lhsContracting := [1]
  rhsContracting := [0]
  lhsNonContracting := [0]
  rhsNonContracting := [1]
  lhsBatch := []
  rhsBatch := []
  wf := dot_S8x2048_S2048x1024_S8x1024_1_0_0_1_n_n_wf

abbrev win0_0 : Pipeline.Window sig grid0 :=
  Pipeline.Window.ofSpec (Memref.whole main_arg3) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1000x1024 : Shape := ⟨2, ![1000, 1024]⟩
abbrev S32768 : Shape := ⟨1, ![32768]⟩
abbrev S1x32768 : Shape := ⟨2, ![1, 32768]⟩
abbrev S2x32768 : Shape := ⟨2, ![2, 32768]⟩
abbrev S65536 : Shape := ⟨1, ![65536]⟩
abbrev S_ : Shape := ⟨0, ![]⟩
abbrev S65536x1 : Shape := ⟨2, ![65536, 1]⟩
abbrev S1000 : Shape := ⟨1, ![1000]⟩
abbrev S1000x1 : Shape := ⟨2, ![1000, 1]⟩

abbrev nBuf : Space → Nat
  | .hbm => 57
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1000x1024, .f32⟩
  | .hbm, ⟨2, _⟩ => ⟨S1000x1024, .f32⟩
  | .hbm, ⟨3, _⟩ => ⟨S32768, .i32⟩
  | .hbm, ⟨4, _⟩ => ⟨S1x32768, .i32⟩
  | .hbm, ⟨5, _⟩ => ⟨S2x32768, .i32⟩
  | .hbm, ⟨6, _⟩ => ⟨S65536, .i32⟩
  | .hbm, ⟨7, _⟩ => ⟨S_, .f32⟩
  | .hbm, ⟨8, _⟩ => ⟨S1000x1024, .f32⟩
  | .hbm, ⟨9, _⟩ => ⟨S65536x1, .i32⟩
  | .hbm, ⟨10, _⟩ => ⟨S1000x1024, .f32⟩
  | .hbm, ⟨11, _⟩ => ⟨S_, .f32⟩
  | .hbm, ⟨12, _⟩ => ⟨S65536, .f32⟩
  | .hbm, ⟨13, _⟩ => ⟨S_, .f32⟩
  | .hbm, ⟨14, _⟩ => ⟨S1000, .f32⟩
  | .hbm, ⟨15, _⟩ => ⟨S65536x1, .i32⟩
  | .hbm, ⟨16, _⟩ => ⟨S1000, .f32⟩
  | .hbm, ⟨17, _⟩ => ⟨S_, .f32⟩
  | .hbm, ⟨18, _⟩ => ⟨S1000, .f32⟩
  | .hbm, ⟨19, _⟩ => ⟨S1000, .i1⟩
  | .hbm, ⟨20, _⟩ => ⟨S_, .f32⟩
  | .hbm, ⟨21, _⟩ => ⟨S1000, .f32⟩
  | .hbm, ⟨22, _⟩ => ⟨S1000, .f32⟩
  | .hbm, ⟨23, _⟩ => ⟨S1000x1, .f32⟩
  | .hbm, ⟨24, _⟩ => ⟨S1000x1024, .f32⟩
  | .hbm, ⟨25, _⟩ => ⟨S1000x1024, .f32⟩
  | .hbm, ⟨26, _⟩ => ⟨S_, .f32⟩
  | .hbm, ⟨27, _⟩ => ⟨S1000x1024, .f32⟩
  | .hbm, ⟨28, _⟩ => ⟨S1000x1024, .f32⟩
  | .hbm, ⟨29, _⟩ => ⟨S_, .f32⟩
  | .hbm, ⟨30, _⟩ => ⟨S1000x1024, .f32⟩
  | .hbm, ⟨31, _⟩ => ⟨S1000x1024, .f32⟩
  | .hbm, ⟨32, _⟩ => ⟨S1000x1024, .f32⟩
  | .hbm, ⟨33, _⟩ => ⟨S1000x1024, .f32⟩
  | .hbm, ⟨34, _⟩ => ⟨S_, .f32⟩
  | .hbm, ⟨35, _⟩ => ⟨S1000, .f32⟩
  | .hbm, ⟨36, _⟩ => ⟨S1000x1, .f32⟩
  | .hbm, ⟨37, _⟩ => ⟨S1000x1, .f32⟩
  | .hbm, ⟨38, _⟩ => ⟨S1000x1024, .f32⟩
  | .hbm, ⟨39, _⟩ => ⟨S1000x1024, .f32⟩
  | .hbm, ⟨40, _⟩ => ⟨S1000x1, .i1⟩
  | .hbm, ⟨41, _⟩ => ⟨S1000x1024, .i1⟩
  | .hbm, ⟨42, _⟩ => ⟨S1000x1024, .f32⟩
  | .hbm, ⟨43, _⟩ => ⟨S1000x1024, .f32⟩
  | .hbm, ⟨44, _⟩ => ⟨S1000x1024, .f32⟩
  | .hbm, ⟨45, _⟩ => ⟨S_, .f32⟩
  | .hbm, ⟨46, _⟩ => ⟨S1000, .f32⟩
  | .hbm, ⟨47, _⟩ => ⟨S1000, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1000, .f32⟩
  | .hbm, ⟨53, _⟩ => ⟨S1000, .f32⟩
  | .hbm, ⟨54, _⟩ => ⟨S_, .f32⟩
  | .hbm, ⟨55, _⟩ => ⟨S_, .f32⟩
  | .hbm, ⟨56, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call1_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_cst_8 : Ref sig .tc := ⟨.hbm, 50, rfl⟩
abbrev main_call2_v0 : Ref sig .tc := ⟨.hbm, 51, rfl⟩
abbrev main_call2_v1 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]

class Facts₀ : Prop where
  shapeCasts_S32768_S1x32768 : S32768.ShapeCasts S1x32768
  bcast_S1x32768_S2x32768_0_1 : S1x32768.BroadcastsInDim S2x32768 (![0, 1] : Fin 2 → Fin S2x32768.rank)
  shapeCasts_S2x32768_S65536 : S2x32768.ShapeCasts S65536
  bcast_S_S1000x1024 : S_.BroadcastsInDim S1000x1024 (![] : Fin 0 → Fin S1000x1024.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x1024_0_1 : S1000x1.BroadcastsInDim S1000x1024 (![0, 1] : Fin 2 → Fin S1000x1024.rank)
  reducesTo_S1000x1024_S1000_d1 : S1000x1024.ReducesTo [1] S1000
  h_S_ : 0 < S_.numel
  reducesTo_S1000_S_d0 : S1000.ReducesTo [0] S_
  scatter_S1000x1024_S65536x1_S65536x1024_1_0_0_1_wf : ScatterDims.WF S1000x1024 S65536x1 S65536x1024 [1] [0] [0] 1
  scatter_S1000_S65536x1_S65536_n_0_0_1_wf : ScatterDims.WF S1000 S65536x1 S65536 [] [0] [0] 1

variable [Facts₀]

def scatter_S1000x1024_S65536x1_S65536x1024_1_0_0_1 : ScatterDims S1000x1024 S65536x1 S65536x1024 where
  updateWindowDims := [1]
  insertedWindowDims := [0]
  scatterDimsToOperandDims := [0]
  indexVectorDim := 1
  wf := scatter_S1000x1024_S65536x1_S65536x1024_1_0_0_1_wf
def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf

class Facts : Prop extends Facts₀ where

variable [Facts]
-- ==== Proof.K.Runs.lean ====
/-
  What the two body runs and the proof data share, for either float instance: the contents of the buffers when the
  region is entered (the region is @main's first statement, so they are the launch contents), each window's block
  at a grid point, the body's one branch condition in closed form over the grid — the accumulators are reset
  exactly at the points whose inner coordinate is 0, i.e. t ≡ 0 (mod 16) — and the staging memrefs the pipeline
  hands the body at a point.
-/
import proofs.«426958_j86199993630993_3_alg».proof.Proof.Gen.Kernel.Launch
import proofs.«426958_j86199993630993_3_alg».proof.Proof.Gen.Kernel.Skeleton
import proofs.«426958_j86199993630993_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s TensorCore buffers when the region is entered: as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's branch condition from the grid coordinates: "the inner coordinate is 0". -/
abbrev cond0_0 (i : grid0.Coords) : Prop := (Scalar.cmpi .ne (Scalar.extui (Scalar.cmpi .eq (BitVec.ofNat 32 (i 1).val) 0#32)) 0#32) = 1#1

/-- It holds exactly at the first point of each of the two runs of sixteen. -/
theorem hcond0_0 : ∀ t : Fin cfg0.N, cond0_0 (grid0.coords t) ↔ t.val % 16 = 0 :=
  (by decide +kernel : ∀ t : Fin grid0.N, cond0_0 (grid0.coords t) ↔ t.val % 16 = 0)

/-- One staging buffer of each output window, through which its contents are stated. -/
abbrev VO0_3 : View sig .tc .vmem S1024x512 .f32 := (Memref.whole cc0_stg3_0 : Memref sig .tc .vmem S1024x512 .f32).view
abbrev VO0_4 : View sig .tc .vmem S8x1024 .f32 := (Memref.whole cc0_stg4_0 : Memref sig .tc .vmem S8x1024 .f32).view

/-- Each window's current staging memref at point `t`, as the pipeline passes it, and its wholeness. -/
abbrev ms0_0 (t : Fin cfg0.N) : Memref sig .tc .vmem S2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)

end Cert.Kernel.Hand

end
-- ==== Proof.K.RunA.lean ====
/-
  The body at a point where the accumulators are reset (inner coordinate 0): on whole staging memrefs holding the
  label block, the two crop blocks and anything in the two accumulators, it runs to the end leaving the three inputs
  as they were and each accumulator with the pieces its stores wrote (first the zero fill, then the contribution added
  to what was read back).
-/
import proofs.«426958_j86199993630993_3_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i)
    (x0 : Vec F S2048 .i32) (x1 : Vec F S2048x512 .f32) (x2 : Vec F S2048x512 .f32) :
    Σ' (L3 : List (View.Piece (Elt F) S1024x512 .f32)), { L4 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__scatter_sum_kernel i arg2 harg2 arg3 harg3 arg4 harg4 arg5 harg5 arg6 harg6) K } := by
  refine ⟨?_, ?_, fun E K => ?run⟩
  case run =>
    simp only [cc0__scatter_sum_kernel_eq_skeleton]; unfold cc0__scatter_sum_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Hand

end
-- ==== Proof.K.RunB.lean ====
/-
  The body at a point where the accumulators are carried (inner coordinate not 0): on whole staging memrefs holding
  the label block, the two crop blocks and the two accumulators as the point before left them, it runs to the end
  leaving the three inputs as they were and each accumulator with the piece its one store wrote (the contribution
  added to what was read back).
-/
import proofs.«426958_j86199993630993_3_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i)
    (x0 : Vec F S2048 .i32) (x1 : Vec F S2048x512 .f32) (x2 : Vec F S2048x512 .f32) (xo3 : Vec F S1024x512 .f32) (xo4 : Vec F S8x1024 .f32) :
    Σ' (L3 : List (View.Piece (Elt F) S1024x512 .f32)), { L4 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__scatter_sum_kernel i arg2 harg2 arg3 harg3 arg4 harg4 arg5 harg5 arg6 harg6) K } := by
  refine ⟨?_, ?_, fun E K => ?run⟩
  case run =>
    simp only [cc0__scatter_sum_kernel_eq_skeleton]; unfold cc0__scatter_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Hand

end
-- ==== Proof.K.Data.lean ====
/-
  The region's proof data, for either float instance. What each case of the body leaves in the two accumulators
  (its stores cover the whole block, so the buffer's contents are the stores read back), the accumulation by recursion
  on the grid point — reset at the points t ≡ 0 (mod 16), otherwise computed over what the point before left, which
  the staging buffer still holds because the window is written back only at t ≡ 15 (mod 16) —, the data the pipeline
  rule takes (the label window and both crop windows hold their blocks at every point; the two crop windows read ONE
  array, each at half of its share), and the body obligation at every point.
-/
import proofs.«426958_j86199993630993_3_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves -/

theorem cover0_A_3 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i) (x0 : Vec F S2048 .i32) (x1 : Vec F S2048x512 .f32) (x2 : Vec F S2048x512 .f32) (y : S1024x512.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1024x512.size (by sl_kernel_rfl) y

theorem cover0_A_4 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i) (x0 : Vec F S2048 .i32) (x1 : Vec F S2048x512 .f32) (x2 : Vec F S2048x512 .f32) (y : S8x1024.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S8x1024.size (by sl_kernel_rfl) y

/-- What the resetting case leaves in the sums accumulator: its stores read back. -/
def out0_A_3 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i) (x0 : Vec F S2048 .i32) (x1 : Vec F S2048x512 .f32) (x2 : Vec F S2048x512 .f32) : Vec F S1024x512 .f32 :=
  VO0_3.read (Elt F) (VO0_3.writes (Elt F) VO0_3.junk (kernelRun0_A c i arg2 harg2 arg3 harg3 arg4 harg4 arg5 harg5 arg6 harg6 hc0 x0 x1 x2).1)

/-- What the resetting case leaves in the counts accumulator. -/
def out0_A_4 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i) (x0 : Vec F S2048 .i32) (x1 : Vec F S2048x512 .f32) (x2 : Vec F S2048x512 .f32) : Vec F S8x1024 .f32 :=
  VO0_4.read (Elt F) (VO0_4.writes (Elt F) VO0_4.junk (kernelRun0_A c i arg2 harg2 arg3 harg3 arg4 harg4 arg5 harg5 arg6 harg6 hc0 x0 x1 x2).2.1)

theorem cover0_B_3 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i) (x0 : Vec F S2048 .i32) (x1 : Vec F S2048x512 .f32) (x2 : Vec F S2048x512 .f32) (xo3 : Vec F S1024x512 .f32) (xo4 : Vec F S8x1024 .f32) (y : S1024x512.Idx) :
    ∃ pc ∈ (kernelRun0_B c i arg2 harg2 arg3 harg3 arg4 harg4 arg5 harg5 arg6 harg6 hc0 x0 x1 x2 xo3 xo4).1, y ∈ pc.1.set :=
  View.cover_of_tiledL (kernelRun0_B c i arg2 harg2 arg3 harg3 arg4 harg4 arg5 harg5 arg6 harg6 hc0 x0 x1 x2 xo3 xo4).1 S1024x512.size (by sl_kernel_rfl) y

theorem cover0_B_4 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i) (x0 : Vec F S2048 .i32) (x1 : Vec F S2048x512 .f32) (x2 : Vec F S2048x512 .f32) (xo3 : Vec F S1024x512 .f32) (xo4 : Vec F S8x1024 .f32) (y : S8x1024.Idx) :
    ∃ pc ∈ (kernelRun0_B c i arg2 harg2 arg3 harg3 arg4 harg4 arg5 harg5 arg6 harg6 hc0 x0 x1 x2 xo3 xo4).2.1, y ∈ pc.1.set :=
  View.cover_of_tiledL (kernelRun0_B c i arg2 harg2 arg3 harg3 arg4 harg4 arg5 harg5 arg6 harg6 hc0 x0 x1 x2 xo3 xo4).2.1 S8x1024.size (by sl_kernel_rfl) y

/-- What the carrying case leaves in the sums accumulator, over what the point before left (`xo3`). -/
def out0_B_3 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i) (x0 : Vec F S2048 .i32) (x1 : Vec F S2048x512 .f32) (x2 : Vec F S2048x512 .f32) (xo3 : Vec F S1024x512 .f32) (xo4 : Vec F S8x1024 .f32) : Vec F S1024x512 .f32 :=
  VO0_3.read (Elt F) (VO0_3.writes (Elt F) VO0_3.junk (kernelRun0_B c i arg2 harg2 arg3 harg3 arg4 harg4 arg5 harg5 arg6 harg6 hc0 x0 x1 x2 xo3 xo4).1)

/-- What the carrying case leaves in the counts accumulator, over what the point before left (`xo4`). -/
def out0_B_4 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i) (x0 : Vec F S2048 .i32) (x1 : Vec F S2048x512 .f32) (x2 : Vec F S2048x512 .f32) (xo3 : Vec F S1024x512 .f32) (xo4 : Vec F S8x1024 .f32) : Vec F S8x1024 .f32 :=
  VO0_4.read (Elt F) (VO0_4.writes (Elt F) VO0_4.junk (kernelRun0_B c i arg2 harg2 arg3 harg3 arg4 harg4 arg5 harg5 arg6 harg6 hc0 x0 x1 x2 xo3 xo4).2.1)

/-! ## The accumulation, point by point -/

/-- What the two accumulators hold after the body at position `n` (sums, counts). -/
def outsAt0 (c : Dev nD) : (n : ℕ) → n < cfg0.N → Vec F S1024x512 .f32 × Vec F S8x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
              out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- At a resetting point. -/
theorem outsAt0_A (c : Dev nD) (t : Fin cfg0.N) (h0 : t.val % 16 = 0) :
    outsAt0 m c t.val t.isLt =
      (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- At a carrying point: over what the point before left. -/
theorem outsAt0_B (c : Dev nD) (t : Fin cfg0.N) (h0 : ¬t.val % 16 = 0) :
    outsAt0 m c t.val t.isLt =
      (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input's buffer at its
    block and the accumulators at `outsAt0`; the scoped rest and the generator register as invariant; nothing owed;
    the two crop windows at the two halves of their common array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

/-- Each input's current staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- At a carrying point each accumulator's staging buffer holds what the body left at the point before. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 32 := lt_of_lt_of_eq t.isLt (show cfg0.N = 32 from N_0)
  by_cases h0 : t.val % 16 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    · unfold owns; iexists _; isplitr
      swap; · iexact H4
      ipureintro; exact View.read_writes_of_cover _ _ _ _ _ (cover0_A_4 c _ _ _ _ _ _ _ _ _ _ _ _ _ _ _)
  · rw [outsAt0_B m c t h0]
    dsimp only
    simp only [before0_3_B m c t h0, before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    · unfold owns; iexists _; isplitr
      swap; · iexact H4
      ipureintro; exact View.read_writes_of_cover _ _ _ _ _ (cover0_B_4 c _ _ _ _ _ _ _ _ _ _ _ _ _ _ _ _ _)

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Shared.lean ====
/-
  The two crop windows read ONE array. The pipeline rule wants each window's array at that window's share; the
  launch deals each distinct buffer once, whole. This module converts between the two: the four distinct buffers
  behind the five windows (labels, samples, sums, counts), each whole at the full share, are the five windows' arrays
  with the samples' share cut in two halves, one per crop window — and back, the two halves holding the same contents.
-/
import proofs.«426958_j86199993630993_3_alg».proof.Proof.K.Data
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind the five windows. -/
theorem image_arrRef : Finset.univ.image (Pipeline.arrRef spec0) = {main_arg3, main_arg0, main_v0_0, main_v0_1} := by decide

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl

/-- The windows' arrays at contents `Fw` are the distinct buffers at `Vb`, when `Fw` reads `Vb` window by window. -/
theorem arrays_iff_arrBufs (c : Dev nD) (Vb : (b : Ref sig .tc) → Buf (Elt F) ((c.tc : Thread nD τ).loc b))
    (Fw : (w : Fin cfg0.W) → Buf (Elt F) ((cfg0.win w).arr.view.loc (c.tc : Thread nD τ)))
    (h0 : Fw 0 = Vb main_arg3) (h1 : Fw 1 = Vb main_arg0) (h2 : Fw 2 = Vb main_arg0) (h3 : Fw 3 = Vb main_v0_0) (h4 : Fw 4 = Vb main_v0_1) :
    (Pipeline.arrBufs spec0 c Vb : sProp 𝕄) ⊣⊢ (dats m 0 c).arrays Fw := by
  have hL : (Pipeline.arrBufs spec0 c Vb : sProp 𝕄)
      = iprop((((c.tc : Thread nD τ).loc main_arg3) ↦{fullShare} Vb main_arg3) ∗ (((c.tc : Thread nD τ).loc main_arg0) ↦{fullShare} Vb main_arg0)
          ∗ (((c.tc : Thread nD τ).loc main_v0_0) ↦{fullShare} Vb main_v0_0) ∗ (((c.tc : Thread nD τ).loc main_v0_1) ↦{fullShare} Vb main_v0_1)) := by
    unfold Pipeline.arrBufs
    rw [image_arrRef, bigSep_insert (by decide), bigSep_insert (by decide), bigSep_insert (by decide), bigSep_singleton]; rfl
  rw [hL]
  unfold Dat.arrays
  rw [bigSep_W0,
    share0, share1, share2, share3, share4,
    (arr_whole0 0).set_eq_univ, (arr_whole0 1).set_eq_univ, (arr_whole0 3).set_eq_univ, (arr_whole0 4).set_eq_univ,
    h0, h1, h2, h3, h4]
  constructor
  · iintro ⟨H3, H0, Hs, Hk⟩
    ihave H0 := (pointsTo_share (PosShare.mem_left_op_right fullShare)).1 $$ H0
    icases H0 with ⟨Ha, Hb⟩
    isplitl [H3]; · iexact H3
    isplitl [Ha]; · iexact Ha
    isplitl [Hb]; · iexact Hb
    isplitl [Hs]; · iexact Hs
    iexact Hk
  · iintro ⟨H3, Ha, Hb, Hs, Hk⟩
    isplitl [H3]; · iexact H3
    isplitl [Ha Hb]
    · iapply (pointsTo_share (PosShare.mem_left_op_right fullShare)).2
      isplitl [Ha]; · iexact Ha
      iexact Hb
    isplitl [Hs]; · iexact Hs
    iexact Hk

end Cert.Kernel.Hand

end
-- ==== Proof.K.Launch.lean ====
/-
  The launch: @main is the kernel region followed by seven stretches of host operations. Each core starts holding
  its unscoped buffers at the launch contents; the region takes the four buffers behind its five windows (the samples
  at two half shares, one per crop window) and hands them back with the sums and counts arrays at what the pipeline's
  write-backs left and everything else untouched; the host stretches then run over all unscoped buffers. At the end
  every unscoped buffer holds the host stretches' result from the region's exit contents.
-/
import proofs.«426958_j86199993630993_3_alg».proof.Proof.K.Shared
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, as a valuation. -/
abbrev V₀ (c : Dev nD) : Valuation τ sig (Elt F) := fun b => m ((c : Dev nD), b)

/-- The sums and counts arrays as the region leaves them. -/
abbrev sumsFull (c : Dev nD) : Buf (Elt F) ((cfg0.win 3).arr.view.loc (c.tc : Thread nD τ)) := (dats m 0 c).arrAt 3 cfg0.N
abbrev countsFull (c : Dev nD) : Buf (Elt F) ((cfg0.win 4).arr.view.loc (c.tc : Thread nD τ)) := (dats m 0 c).arrAt 4 cfg0.N

/-- Core `c`'s buffers when the region is left: the two result arrays written, everything else as launched. -/
def Wx (c : Dev nD) : Valuation τ sig (Elt F) := fun b =>
  if h3 : Proc.devRef .tc main_v0_0 = b then h3 ▸ (sumsFull m c : (Proc.devRef (τ := τ) .tc main_v0_0).ty.Contents (Elt F))
  else if h4 : Proc.devRef .tc main_v0_1 = b then h4 ▸ (countsFull m c : (Proc.devRef (τ := τ) .tc main_v0_1).ty.Contents (Elt F))
  else V₀ m c b

theorem Wx_sums (c : Dev nD) : Wx m c (Proc.devRef .tc main_v0_0) = sumsFull m c := by
  unfold Wx; rw [dif_pos rfl]
theorem Wx_counts (c : Dev nD) : Wx m c (Proc.devRef .tc main_v0_1) = countsFull m c := by
  unfold Wx; rw [dif_neg (by decide), dif_pos rfl]
theorem Wx_other (c : Dev nD) (b : Ref sig .tc) (h3 : b ≠ main_v0_0) (h4 : b ≠ main_v0_1) :
    Wx m c (Proc.devRef .tc b) = m ((c.tc : Thread nD τ).loc b) := by
  unfold Wx
  rw [dif_neg (fun e => h3 (Proc.devRef_injective _ e).symm), dif_neg (fun e => h4 (Proc.devRef_injective _ e).symm)]

/-- The buffers after each host stretch. -/
def W1 (c : Dev nD) : Valuation τ sig (Elt F) := StableHlo.after hostOps1 (Wx m c)
def W2 (c : Dev nD) : Valuation τ sig (Elt F) := StableHlo.after hostOps1_1 (W1 m c)
def W3 (c : Dev nD) : Valuation τ sig (Elt F) := StableHlo.after hostOps1_2 (W2 m c)
def W4 (c : Dev nD) : Valuation τ sig (Elt F) := StableHlo.after hostOps1_3 (W3 m c)
def W5 (c : Dev nD) : Valuation τ sig (Elt F) := StableHlo.after hostOps1_4 (W4 m c)
def W6 (c : Dev nD) : Valuation τ sig (Elt F) := StableHlo.after hostOps1_5 (W5 m c)
def W7 (c : Dev nD) : Valuation τ sig (Elt F) := StableHlo.after hostOps1_6 (W6 m c)

/-- What rides beside the buffers between the segments: the generator register and the core's (empty) dues. -/
abbrev R (c : Dev nD) : sProp 𝕄 := iprop((∃ r, prngReg c r) ∗ ∃ W, owes (c.tc : Thread nD τ) (0 : CellTallies nD τ sig Unit) W)

abbrev L : GSem nD τ sig → Finset Unit := fun _ => ∅
abbrev lv : GSem nD τ sig → Unit → ℕ := fun _ _ => 0
abbrev adm : (p : Fin 1) → (pcfgs (F := F) p).Adm := fun p => (cfgs p).toPCfg_adm

theorem fresh_of (ops : List (HloOp τ sig (Elt F))) (h : ops.Forall fun op => op.fresh = ∅) : ∀ op ∈ ops, op.fresh = ∅ :=
  List.forall_iff_forall_mem.mp h

def hseg (ops : List (HloOp τ sig (Elt F))) (hsub : ops.Forall fun op => op.bufs ⊆ StableHlo.tcRefs τ sig) (hf : ∀ op ∈ ops, op.fresh = ∅)
    (W : Dev nD → Valuation τ sig (Elt F)) : Pipeline.HostSeg (Name := ℕ) (U := UR sig nD τ) (pcfgs (F := F)) defs₀ Variants.none L lv :=
  Pipeline.HostSeg.ofOps _ _ _ _ _ (Pipeline.ucRefs τ sig) ops (fun op h => Pipeline.sub_ucRefs op ((List.forall_iff_forall_mem.mp hsub) op h)) hf W R

theorem hf1 : ∀ op ∈ (hostOps1 (F := F)), op.fresh = ∅ := by
  intro _ h; (repeat (cases h with | head => rfl | tail _ h => ?_)); exact nomatch h
theorem hf1_1 : ∀ op ∈ (hostOps1_1 (F := F)), op.fresh = ∅ := by
  intro _ h; (repeat (cases h with | head => rfl | tail _ h => ?_)); exact nomatch h
theorem hf1_2 : ∀ op ∈ (hostOps1_2 (F := F)), op.fresh = ∅ := by
  intro _ h; (repeat (cases h with | head => rfl | tail _ h => ?_)); exact nomatch h
theorem hf1_3 : ∀ op ∈ (hostOps1_3 (F := F)), op.fresh = ∅ := by
  intro _ h; (repeat (cases h with | head => rfl | tail _ h => ?_)); exact nomatch h
theorem hf1_4 : ∀ op ∈ (hostOps1_4 (F := F)), op.fresh = ∅ := by
  intro _ h; (repeat (cases h with | head => rfl | tail _ h => ?_)); exact nomatch h
theorem hf1_5 : ∀ op ∈ (hostOps1_5 (F := F)), op.fresh = ∅ := by
  intro _ h; (repeat (cases h with | head => rfl | tail _ h => ?_)); exact nomatch h
theorem hf1_6 : ∀ op ∈ (hostOps1_6 (F := F)), op.fresh = ∅ := by
  intro _ h; (repeat (cases h with | head => rfl | tail _ h => ?_)); exact nomatch h

/-- The windows' arrays at the region's exit read the exit valuation. -/
theorem exit_reads (c : Dev nD) (w : Fin cfg0.W) :
    (dats m 0 c).arrAt w cfg0.N = (fun b : Ref sig .tc => Wx m c (Proc.devRef .tc b)) (Pipeline.arrRef spec0 w) := by
  match w with
  | ⟨0, _⟩ => exact ((dats m 0 c).arrAt_in 0 rfl _).trans ((A_eq m c 0).trans (Wx_other m c main_arg3 (by decide) (by decide)).symm)
  | ⟨1, _⟩ => exact ((dats m 0 c).arrAt_in 1 rfl _).trans ((A_eq m c 1).trans (Wx_other m c main_arg0 (by decide) (by decide)).symm)
  | ⟨2, _⟩ => exact ((dats m 0 c).arrAt_in 2 rfl _).trans ((A_eq m c 2).trans (Wx_other m c main_arg0 (by decide) (by decide)).symm)
  | ⟨3, _⟩ => exact (Wx_sums m c).symm
  | ⟨4, _⟩ => exact (Wx_counts m c).symm

set_option backward.isDefEq.respectTransparency.types false in
/-- THE REGION. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c.tc : Thread nD τ) (Pipeline.ucRefs τ sig) (V₀ m c) ∗ R c)
  post c := iprop(StableHlo.held (c.tc : Thread nD τ) (Pipeline.ucRefs τ sig) (Wx m c) ∗ R c)
  X c := iprop(∃ r, prngReg c r)
  Y c := iprop(∃ r, prngReg c r)
  Z c := Pipeline.unscopedRest spec0 c (V m c)
  hentry c := by
    rw [show StableHlo.held (c.tc : Thread nD τ) (Pipeline.ucRefs τ sig) (V₀ m c) = unscopedBufs c (V m c)
      from (Pipeline.unscopedBufs_held c (V₀ m c)).symm,
      Pipeline.unscopedBufs_split₀ cfgs 0 winFacts₀0.arr_unscoped c (V m c)]
    iintro ⟨⟨⟨Hab, Hrest⟩, Hp, HO⟩, -, -⟩
    ihave Ha := (arrays_iff_arrBufs m c (V m c) (fun w => (dats m 0 c).arrAt w 0) rfl rfl rfl rfl rfl).1 $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c.tc : Thread nD τ) (Pipeline.ucRefs τ sig) (Wx m c) = unscopedBufs c (fun b => Wx m c (Proc.devRef .tc b))
      from (Pipeline.unscopedBufs_held c (Wx m c)).symm,
      Pipeline.unscopedBufs_split₀ cfgs 0 winFacts₀0.arr_unscoped c (fun b => Wx m c (Proc.devRef .tc b))]
    have hrest : (Pipeline.unscopedRest spec0 c (fun b => Wx m c (Proc.devRef .tc b)) : sProp 𝕄) = Pipeline.unscopedRest spec0 c (V m c) := by
      unfold Pipeline.unscopedRest
      refine bigSep_congr fun b hb => ?_
      have hb' : b ∉ Finset.univ.image (Pipeline.arrRef spec0) := (Finset.mem_sdiff.mp hb).2
      rw [image_arrRef] at hb'
      dsimp only
      rw [Wx_other m c b (fun e => hb' (by rw [e]; decide)) (fun e => hb' (by rw [e]; decide))]
    rw [hrest]
    iintro ⟨Ha, HO, HY, HZ⟩
    ihave Hab := (arrays_iff_arrBufs m c (fun b => Wx m c (Proc.devRef .tc b)) (fun w => (dats m 0 c).arrAt w cfg0.N)
      (exit_reads m c 0) (exit_reads m c 1) (exit_reads m c 2) (exit_reads m c 3) (exit_reads m c 4)).2 $$ Ha
    imodintro
    isplitl [Hab HZ]
    · isplitl [Hab] <;> iassumption
    isplitl [HY]; · iexact HY
    unfold Pipeline.Dat.owesAt Pipeline.owesWithin
    icases HO with ⟨%W, -, HO⟩; iexists W; iexact HO

/-- @main as segments: the region, then the seven host stretches. -/
abbrev segs : List (Pipeline.Seg (pcfgs (F := F)) adm (dats m) () defs₀ Variants.none L lv) :=
  [.region (reg0 m), .host (hseg hostOps1 hostOps1_sub hf1 (Wx m)), .host (hseg hostOps1_1 hostOps1_1_sub hf1_1 (W1 m)),
   .host (hseg hostOps1_2 hostOps1_2_sub hf1_2 (W2 m)), .host (hseg hostOps1_3 hostOps1_3_sub hf1_3 (W3 m)),
   .host (hseg hostOps1_4 hostOps1_4_sub hf1_4 (W4 m)), .host (hseg hostOps1_5 hostOps1_5_sub hf1_5 (W5 m)),
   .host (hseg hostOps1_6 hostOps1_6_sub hf1_6 (W6 m))]

/-- What the run establishes: every unscoped buffer of every core ends at the host stretches' result. -/
def RunPost (r : PUnit × MemSt nD τ sig (Elt F)) : Prop :=
  ∀ c : Dev nD, ∀ b : Ref sig .tc, b.isScoped = false → r.2.mem ((c.tc : Thread nD τ).loc b) = W7 m c (Proc.devRef .tc b)

set_option backward.isDefEq.respectTransparency.types false in
theorem run_main : θ_run defs (onTc (τ := τ) (main (F := F))) ⟨m, fun _ => 0, ρ⟩ (RunPost m) :=
  Pipeline.θ_run_regions_kit (pcfgs (F := F)) adm (dats m) () cellOf_inj emb₁ defs₀ Variants.none L lv m ρ main (segs m)
    (fun c Q => by
      have h : main (F := F) c = Pipeline.Seg.run (segs m) := by rw [main_chain c, Pipeline.Seg.run_eq_chain]; rfl
      rw [h])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V₀ m c) ∗ R c))
    (Tₙ := fun c => iprop(StableHlo.held (c.tc : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun _ => .rfl,
      fun c => by
        show iprop(StableHlo.held (c.tc : Thread nD τ) (Pipeline.ucRefs τ sig) (W7 m c) ∗ R c) ⊢ _
        iintro ⟨Hh, Hp, HO⟩
        isplitr [HO]
        · isplitl [Hh] <;> iassumption
        · iexact HO⟩)
    (hinit := by
      refine Pipeline.initEach L lv fun c => ?_
      rw [show unscopedBufs c (fun b => m ((c.tc : Thread nD τ).loc b)) = StableHlo.held (c.tc : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b : Ref sig .tc, b.isScoped = false → s.mem ((c.tc : Thread nD τ).loc b) = W7 m c (Proc.devRef .tc b))
    (hfin := fun c s' => by
      rw [show StableHlo.held (c.tc : Thread nD τ) (Pipeline.ucRefs τ sig) (W7 m c) = unscopedBufs c (fun b => W7 m c (Proc.devRef .tc b))
        from (Pipeline.unscopedBufs_held c (W7 m c)).symm]
      unfold unscopedBufs
      iintro ⟨⟨Hh, -⟩, HSI⟩
      ihave Hr := (pointsTo_read_all (Finset.univ.filter fun b : Ref sig .tc => ¬ b.isScoped) (fun b => (c.tc : Thread nD τ).loc b)
        (fun b => W7 m c (Proc.devRef .tc b)) s') $$ [Hh HSI]
      · isplitl [Hh] <;> iassumption
      icases Hr with ⟨%hr, HSI⟩
      imodintro
      isplitr
      · ipureintro; intro b hb; exact hr b (Finset.mem_filter.mpr ⟨Finset.mem_univ _, by simp [hb]⟩)
      iexact HSI)
    (hQ := fun _ h => h)

end Cert.Kernel.Hand

end
-- ==== Proof.K.Frame.lean ====
/-
  Reading the run's post. No host stretch after the region writes an argument array, so each reaches the end as
  launched; and the result buffer holds the seven stretches' composed function of the sums and counts arrays the region
  left and of the two centre tables: the first thousand rows of the sums, twice the first thousand entries of row 0 of
  the counts, and then the tail shared with the reference.
-/
import proofs.«426958_j86199993630993_3_alg».proof.Proof.K.Launch
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

theorem W7_arg0 (c : Dev nD) : W7 m c (Proc.devRef .tc main_arg0) = m ((c.tc : Thread nD τ).loc main_arg0) := by
  unfold W7 W6 W5 W4 W3 W2 W1
  after_results_simp
  exact Wx_other m c main_arg0 (by decide) (by decide)

theorem W7_arg1 (c : Dev nD) : W7 m c (Proc.devRef .tc main_arg1) = m ((c.tc : Thread nD τ).loc main_arg1) := by
  unfold W7 W6 W5 W4 W3 W2 W1
  after_results_simp
  exact Wx_other m c main_arg1 (by decide) (by decide)

theorem W7_arg2 (c : Dev nD) : W7 m c (Proc.devRef .tc main_arg2) = m ((c.tc : Thread nD τ).loc main_arg2) := by
  unfold W7 W6 W5 W4 W3 W2 W1
  after_results_simp
  exact Wx_other m c main_arg2 (by decide) (by decide)

theorem W7_arg3 (c : Dev nD) : W7 m c (Proc.devRef .tc main_arg3) = m ((c.tc : Thread nD τ).loc main_arg3) := by
  unfold W7 W6 W5 W4 W3 W2 W1
  after_results_simp
  exact Wx_other m c main_arg3 (by decide) (by decide)

/-- THE FRAME: the program runs to the end without fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c main_arg0 rfl).trans (W7_arg0 m c), (h c main_arg1 rfl).trans (W7_arg1 m c),
    (h c main_arg2 rfl).trans (W7_arg2 m c), (h c main_arg3 rfl).trans (W7_arg3 m c)⟩) (run_main m ρ)

end Cert.Kernel.Hand

end
-- ==== Proof.KI.Runs.lean ====
/-
  What the two body runs and the proof data share, for either float instance: the contents of the buffers when the
  region is entered (the region is @main's first statement, so they are the launch contents), each window's block
  at a grid point, the body's one branch condition in closed form over the grid — the accumulators are reset
  exactly at the points whose inner coordinate is 0, i.e. t ≡ 0 (mod 16) — and the staging memrefs the pipeline
  hands the body at a point.
-/
import proofs.«426958_j86199993630993_3_alg».proof.Proof.Gen.KernelIdeal.Launch
import proofs.«426958_j86199993630993_3_alg».proof.Proof.Gen.KernelIdeal.Skeleton
import proofs.«426958_j86199993630993_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s TensorCore buffers when the region is entered: as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's branch condition from the grid coordinates: "the inner coordinate is 0". -/
abbrev cond0_0 (i : grid0.Coords) : Prop := (Scalar.cmpi .ne (Scalar.extui (Scalar.cmpi .eq (BitVec.ofNat 32 (i 1).val) 0#32)) 0#32) = 1#1

/-- It holds exactly at the first point of each of the two runs of sixteen. -/
theorem hcond0_0 : ∀ t : Fin cfg0.N, cond0_0 (grid0.coords t) ↔ t.val % 16 = 0 :=
  (by decide +kernel : ∀ t : Fin grid0.N, cond0_0 (grid0.coords t) ↔ t.val % 16 = 0)

/-- One staging buffer of each output window, through which its contents are stated. -/
abbrev VO0_3 : View sig .tc .vmem S1024x512 .f32 := (Memref.whole cc0_stg3_0 : Memref sig .tc .vmem S1024x512 .f32).view
abbrev VO0_4 : View sig .tc .vmem S8x1024 .f32 := (Memref.whole cc0_stg4_0 : Memref sig .tc .vmem S8x1024 .f32).view

/-- Each window's current staging memref at point `t`, as the pipeline passes it, and its wholeness. -/
abbrev ms0_0 (t : Fin cfg0.N) : Memref sig .tc .vmem S2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1024 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KI.RunA.lean ====
/-
  The body at a point where the accumulators are reset (inner coordinate 0): on whole staging memrefs holding the
  label block, the two crop blocks and anything in the two accumulators, it runs to the end leaving the three inputs
  as they were and each accumulator with the pieces its stores wrote (first the zero fill, then the contribution added
  to what was read back).
-/
import proofs.«426958_j86199993630993_3_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i)
    (x0 : Vec F S2048 .i32) (x1 : Vec F S2048x512 .f32) (x2 : Vec F S2048x512 .f32) :
    Σ' (L3 : List (View.Piece (Elt F) S1024x512 .f32)), { L4 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__scatter_sum_kernel i arg2 harg2 arg3 harg3 arg4 harg4 arg5 harg5 arg6 harg6) K } := by
  refine ⟨?_, ?_, fun E K => ?run⟩
  case run =>
    simp only [cc0__scatter_sum_kernel_eq_skeleton]; unfold cc0__scatter_sum_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Hand

end
-- ==== Proof.KI.RunB.lean ====
/-
  The body at a point where the accumulators are carried (inner coordinate not 0): on whole staging memrefs holding
  the label block, the two crop blocks and the two accumulators as the point before left them, it runs to the end
  leaving the three inputs as they were and each accumulator with the piece its one store wrote (the contribution
  added to what was read back).
-/
import proofs.«426958_j86199993630993_3_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i)
    (x0 : Vec F S2048 .i32) (x1 : Vec F S2048x512 .f32) (x2 : Vec F S2048x512 .f32) (xo3 : Vec F S1024x512 .f32) (xo4 : Vec F S8x1024 .f32) :
    Σ' (L3 : List (View.Piece (Elt F) S1024x512 .f32)), { L4 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__scatter_sum_kernel i arg2 harg2 arg3 harg3 arg4 harg4 arg5 harg5 arg6 harg6) K } := by
  refine ⟨?_, ?_, fun E K => ?run⟩
  case run =>
    simp only [cc0__scatter_sum_kernel_eq_skeleton]; unfold cc0__scatter_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Hand

end
-- ==== Proof.KI.Data.lean ====
/-
  The region's proof data, for either float instance. What each case of the body leaves in the two accumulators
  (its stores cover the whole block, so the buffer's contents are the stores read back), the accumulation by recursion
  on the grid point — reset at the points t ≡ 0 (mod 16), otherwise computed over what the point before left, which
  the staging buffer still holds because the window is written back only at t ≡ 15 (mod 16) —, the data the pipeline
  rule takes (the label window and both crop windows hold their blocks at every point; the two crop windows read ONE
  array, each at half of its share), and the body obligation at every point.
-/
import proofs.«426958_j86199993630993_3_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves -/

theorem cover0_A_3 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i) (x0 : Vec F S2048 .i32) (x1 : Vec F S2048x512 .f32) (x2 : Vec F S2048x512 .f32) (y : S1024x512.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1024x512.size (by sl_kernel_rfl) y

theorem cover0_A_4 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i) (x0 : Vec F S2048 .i32) (x1 : Vec F S2048x512 .f32) (x2 : Vec F S2048x512 .f32) (y : S8x1024.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S8x1024.size (by sl_kernel_rfl) y

/-- What the resetting case leaves in the sums accumulator: its stores read back. -/
def out0_A_3 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i) (x0 : Vec F S2048 .i32) (x1 : Vec F S2048x512 .f32) (x2 : Vec F S2048x512 .f32) : Vec F S1024x512 .f32 :=
  VO0_3.read (Elt F) (VO0_3.writes (Elt F) VO0_3.junk (kernelRun0_A c i arg2 harg2 arg3 harg3 arg4 harg4 arg5 harg5 arg6 harg6 hc0 x0 x1 x2).1)

/-- What the resetting case leaves in the counts accumulator. -/
def out0_A_4 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i) (x0 : Vec F S2048 .i32) (x1 : Vec F S2048x512 .f32) (x2 : Vec F S2048x512 .f32) : Vec F S8x1024 .f32 :=
  VO0_4.read (Elt F) (VO0_4.writes (Elt F) VO0_4.junk (kernelRun0_A c i arg2 harg2 arg3 harg3 arg4 harg4 arg5 harg5 arg6 harg6 hc0 x0 x1 x2).2.1)

theorem cover0_B_3 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i) (x0 : Vec F S2048 .i32) (x1 : Vec F S2048x512 .f32) (x2 : Vec F S2048x512 .f32) (xo3 : Vec F S1024x512 .f32) (xo4 : Vec F S8x1024 .f32) (y : S1024x512.Idx) :
    ∃ pc ∈ (kernelRun0_B c i arg2 harg2 arg3 harg3 arg4 harg4 arg5 harg5 arg6 harg6 hc0 x0 x1 x2 xo3 xo4).1, y ∈ pc.1.set :=
  View.cover_of_tiledL (kernelRun0_B c i arg2 harg2 arg3 harg3 arg4 harg4 arg5 harg5 arg6 harg6 hc0 x0 x1 x2 xo3 xo4).1 S1024x512.size (by sl_kernel_rfl) y

theorem cover0_B_4 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i) (x0 : Vec F S2048 .i32) (x1 : Vec F S2048x512 .f32) (x2 : Vec F S2048x512 .f32) (xo3 : Vec F S1024x512 .f32) (xo4 : Vec F S8x1024 .f32) (y : S8x1024.Idx) :
    ∃ pc ∈ (kernelRun0_B c i arg2 harg2 arg3 harg3 arg4 harg4 arg5 harg5 arg6 harg6 hc0 x0 x1 x2 xo3 xo4).2.1, y ∈ pc.1.set :=
  View.cover_of_tiledL (kernelRun0_B c i arg2 harg2 arg3 harg3 arg4 harg4 arg5 harg5 arg6 harg6 hc0 x0 x1 x2 xo3 xo4).2.1 S8x1024.size (by sl_kernel_rfl) y

/-- What the carrying case leaves in the sums accumulator, over what the point before left (`xo3`). -/
def out0_B_3 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i) (x0 : Vec F S2048 .i32) (x1 : Vec F S2048x512 .f32) (x2 : Vec F S2048x512 .f32) (xo3 : Vec F S1024x512 .f32) (xo4 : Vec F S8x1024 .f32) : Vec F S1024x512 .f32 :=
  VO0_3.read (Elt F) (VO0_3.writes (Elt F) VO0_3.junk (kernelRun0_B c i arg2 harg2 arg3 harg3 arg4 harg4 arg5 harg5 arg6 harg6 hc0 x0 x1 x2 xo3 xo4).1)

/-- What the carrying case leaves in the counts accumulator, over what the point before left (`xo4`). -/
def out0_B_4 (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i) (x0 : Vec F S2048 .i32) (x1 : Vec F S2048x512 .f32) (x2 : Vec F S2048x512 .f32) (xo3 : Vec F S1024x512 .f32) (xo4 : Vec F S8x1024 .f32) : Vec F S8x1024 .f32 :=
  VO0_4.read (Elt F) (VO0_4.writes (Elt F) VO0_4.junk (kernelRun0_B c i arg2 harg2 arg3 harg3 arg4 harg4 arg5 harg5 arg6 harg6 hc0 x0 x1 x2 xo3 xo4).2.1)

/-! ## The accumulation, point by point -/

/-- What the two accumulators hold after the body at position `n` (sums, counts). -/
def outsAt0 (c : Dev nD) : (n : ℕ) → n < cfg0.N → Vec F S1024x512 .f32 × Vec F S8x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
              out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- At a resetting point. -/
theorem outsAt0_A (c : Dev nD) (t : Fin cfg0.N) (h0 : t.val % 16 = 0) :
    outsAt0 m c t.val t.isLt =
      (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- At a carrying point: over what the point before left. -/
theorem outsAt0_B (c : Dev nD) (t : Fin cfg0.N) (h0 : ¬t.val % 16 = 0) :
    outsAt0 m c t.val t.isLt =
      (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input's buffer at its
    block and the accumulators at `outsAt0`; the scoped rest and the generator register as invariant; nothing owed;
    the two crop windows at the two halves of their common array's share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

/-- Each input's current staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- At a carrying point each accumulator's staging buffer holds what the body left at the point before. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)).2 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 32 := lt_of_lt_of_eq t.isLt (show cfg0.N = 32 from N_0)
  by_cases h0 : t.val % 16 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    · unfold owns; iexists _; isplitr
      swap; · iexact H4
      ipureintro; exact View.read_writes_of_cover _ _ _ _ _ (cover0_A_4 c _ _ _ _ _ _ _ _ _ _ _ _ _ _ _)
  · rw [outsAt0_B m c t h0]
    dsimp only
    simp only [before0_3_B m c t h0, before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    · unfold owns; iexists _; isplitr
      swap; · iexact H4
      ipureintro; exact View.read_writes_of_cover _ _ _ _ _ (cover0_B_4 c _ _ _ _ _ _ _ _ _ _ _ _ _ _ _ _ _)

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Shared.lean ====
/-
  The two crop windows read ONE array. The pipeline rule wants each window's array at that window's share; the
  launch deals each distinct buffer once, whole. This module converts between the two: the four distinct buffers
  behind the five windows (labels, samples, sums, counts), each whole at the full share, are the five windows' arrays
  with the samples' share cut in two halves, one per crop window — and back, the two halves holding the same contents.
-/
import proofs.«426958_j86199993630993_3_alg».proof.Proof.KI.Data
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind the five windows. -/
theorem image_arrRef : Finset.univ.image (Pipeline.arrRef spec0) = {main_arg3, main_arg0, main_v0_0, main_v0_1} := by decide

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl

/-- The windows' arrays at contents `Fw` are the distinct buffers at `Vb`, when `Fw` reads `Vb` window by window. -/
theorem arrays_iff_arrBufs (c : Dev nD) (Vb : (b : Ref sig .tc) → Buf (Elt F) ((c.tc : Thread nD τ).loc b))
    (Fw : (w : Fin cfg0.W) → Buf (Elt F) ((cfg0.win w).arr.view.loc (c.tc : Thread nD τ)))
    (h0 : Fw 0 = Vb main_arg3) (h1 : Fw 1 = Vb main_arg0) (h2 : Fw 2 = Vb main_arg0) (h3 : Fw 3 = Vb main_v0_0) (h4 : Fw 4 = Vb main_v0_1) :
    (Pipeline.arrBufs spec0 c Vb : sProp 𝕄) ⊣⊢ (dats m 0 c).arrays Fw := by
  have hL : (Pipeline.arrBufs spec0 c Vb : sProp 𝕄)
      = iprop((((c.tc : Thread nD τ).loc main_arg3) ↦{fullShare} Vb main_arg3) ∗ (((c.tc : Thread nD τ).loc main_arg0) ↦{fullShare} Vb main_arg0)
          ∗ (((c.tc : Thread nD τ).loc main_v0_0) ↦{fullShare} Vb main_v0_0) ∗ (((c.tc : Thread nD τ).loc main_v0_1) ↦{fullShare} Vb main_v0_1)) := by
    unfold Pipeline.arrBufs
    rw [image_arrRef, bigSep_insert (by decide), bigSep_insert (by decide), bigSep_insert (by decide), bigSep_singleton]; rfl
  rw [hL]
  unfold Dat.arrays
  rw [bigSep_W0,
    share0, share1, share2, share3, share4,
    (arr_whole0 0).set_eq_univ, (arr_whole0 1).set_eq_univ, (arr_whole0 3).set_eq_univ, (arr_whole0 4).set_eq_univ,
    h0, h1, h2, h3, h4]
  constructor
  · iintro ⟨H3, H0, Hs, Hk⟩
    ihave H0 := (pointsTo_share (PosShare.mem_left_op_right fullShare)).1 $$ H0
    icases H0 with ⟨Ha, Hb⟩
    isplitl [H3]; · iexact H3
    isplitl [Ha]; · iexact Ha
    isplitl [Hb]; · iexact Hb
    isplitl [Hs]; · iexact Hs
    iexact Hk
  · iintro ⟨H3, Ha, Hb, Hs, Hk⟩
    isplitl [H3]; · iexact H3
    isplitl [Ha Hb]
    · iapply (pointsTo_share (PosShare.mem_left_op_right fullShare)).2
      isplitl [Ha]; · iexact Ha
      iexact Hb
    isplitl [Hs]; · iexact Hs
    iexact Hk

end Cert.KernelIdeal.Hand

end
-- ==== Proof.KI.Launch.lean ====
/-
  The launch: @main is the kernel region followed by seven stretches of host operations. Each core starts holding
  its unscoped buffers at the launch contents; the region takes the four buffers behind its five windows (the samples
  at two half shares, one per crop window) and hands them back with the sums and counts arrays at what the pipeline's
  write-backs left and everything else untouched; the host stretches then run over all unscoped buffers. At the end
  every unscoped buffer holds the host stretches' result from the region's exit contents.
-/
import proofs.«426958_j86199993630993_3_alg».proof.Proof.KI.Shared
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, as a valuation. -/
abbrev V₀ (c : Dev nD) : Valuation τ sig (Elt F) := fun b => m ((c : Dev nD), b)

/-- The sums and counts arrays as the region leaves them. -/
abbrev sumsFull (c : Dev nD) : Buf (Elt F) ((cfg0.win 3).arr.view.loc (c.tc : Thread nD τ)) := (dats m 0 c).arrAt 3 cfg0.N
abbrev countsFull (c : Dev nD) : Buf (Elt F) ((cfg0.win 4).arr.view.loc (c.tc : Thread nD τ)) := (dats m 0 c).arrAt 4 cfg0.N

/-- Core `c`'s buffers when the region is left: the two result arrays written, everything else as launched. -/
def Wx (c : Dev nD) : Valuation τ sig (Elt F) := fun b =>
  if h3 : Proc.devRef .tc main_v0_0 = b then h3 ▸ (sumsFull m c : (Proc.devRef (τ := τ) .tc main_v0_0).ty.Contents (Elt F))
  else if h4 : Proc.devRef .tc main_v0_1 = b then h4 ▸ (countsFull m c : (Proc.devRef (τ := τ) .tc main_v0_1).ty.Contents (Elt F))
  else V₀ m c b

theorem Wx_sums (c : Dev nD) : Wx m c (Proc.devRef .tc main_v0_0) = sumsFull m c := by
  unfold Wx; rw [dif_pos rfl]
theorem Wx_counts (c : Dev nD) : Wx m c (Proc.devRef .tc main_v0_1) = countsFull m c := by
  unfold Wx; rw [dif_neg (by decide), dif_pos rfl]
theorem Wx_other (c : Dev nD) (b : Ref sig .tc) (h3 : b ≠ main_v0_0) (h4 : b ≠ main_v0_1) :
    Wx m c (Proc.devRef .tc b) = m ((c.tc : Thread nD τ).loc b) := by
  unfold Wx
  rw [dif_neg (fun e => h3 (Proc.devRef_injective _ e).symm), dif_neg (fun e => h4 (Proc.devRef_injective _ e).symm)]

/-- The buffers after each host stretch. -/
def W1 (c : Dev nD) : Valuation τ sig (Elt F) := StableHlo.after hostOps1 (Wx m c)
def W2 (c : Dev nD) : Valuation τ sig (Elt F) := StableHlo.after hostOps1_1 (W1 m c)
def W3 (c : Dev nD) : Valuation τ sig (Elt F) := StableHlo.after hostOps1_2 (W2 m c)
def W4 (c : Dev nD) : Valuation τ sig (Elt F) := StableHlo.after hostOps1_3 (W3 m c)
def W5 (c : Dev nD) : Valuation τ sig (Elt F) := StableHlo.after hostOps1_4 (W4 m c)
def W6 (c : Dev nD) : Valuation τ sig (Elt F) := StableHlo.after hostOps1_5 (W5 m c)
def W7 (c : Dev nD) : Valuation τ sig (Elt F) := StableHlo.after hostOps1_6 (W6 m c)

/-- What rides beside the buffers between the segments: the generator register and the core's (empty) dues. -/
abbrev R (c : Dev nD) : sProp 𝕄 := iprop((∃ r, prngReg c r) ∗ ∃ W, owes (c.tc : Thread nD τ) (0 : CellTallies nD τ sig Unit) W)

abbrev L : GSem nD τ sig → Finset Unit := fun _ => ∅
abbrev lv : GSem nD τ sig → Unit → ℕ := fun _ _ => 0
abbrev adm : (p : Fin 1) → (pcfgs (F := F) p).Adm := fun p => (cfgs p).toPCfg_adm

theorem fresh_of (ops : List (HloOp τ sig (Elt F))) (h : ops.Forall fun op => op.fresh = ∅) : ∀ op ∈ ops, op.fresh = ∅ :=
  List.forall_iff_forall_mem.mp h

def hseg (ops : List (HloOp τ sig (Elt F))) (hsub : ops.Forall fun op => op.bufs ⊆ StableHlo.tcRefs τ sig) (hf : ∀ op ∈ ops, op.fresh = ∅)
    (W : Dev nD → Valuation τ sig (Elt F)) : Pipeline.HostSeg (Name := ℕ) (U := UR sig nD τ) (pcfgs (F := F)) defs₀ Variants.none L lv :=
  Pipeline.HostSeg.ofOps _ _ _ _ _ (Pipeline.ucRefs τ sig) ops (fun op h => Pipeline.sub_ucRefs op ((List.forall_iff_forall_mem.mp hsub) op h)) hf W R

theorem hf1 : ∀ op ∈ (hostOps1 (F := F)), op.fresh = ∅ := by
  intro _ h; (repeat (cases h with | head => rfl | tail _ h => ?_)); exact nomatch h
theorem hf1_1 : ∀ op ∈ (hostOps1_1 (F := F)), op.fresh = ∅ := by
  intro _ h; (repeat (cases h with | head => rfl | tail _ h => ?_)); exact nomatch h
theorem hf1_2 : ∀ op ∈ (hostOps1_2 (F := F)), op.fresh = ∅ := by
  intro _ h; (repeat (cases h with | head => rfl | tail _ h => ?_)); exact nomatch h
theorem hf1_3 : ∀ op ∈ (hostOps1_3 (F := F)), op.fresh = ∅ := by
  intro _ h; (repeat (cases h with | head => rfl | tail _ h => ?_)); exact nomatch h
theorem hf1_4 : ∀ op ∈ (hostOps1_4 (F := F)), op.fresh = ∅ := by
  intro _ h; (repeat (cases h with | head => rfl | tail _ h => ?_)); exact nomatch h
theorem hf1_5 : ∀ op ∈ (hostOps1_5 (F := F)), op.fresh = ∅ := by
  intro _ h; (repeat (cases h with | head => rfl | tail _ h => ?_)); exact nomatch h
theorem hf1_6 : ∀ op ∈ (hostOps1_6 (F := F)), op.fresh = ∅ := by
  intro _ h; (repeat (cases h with | head => rfl | tail _ h => ?_)); exact nomatch h

/-- The windows' arrays at the region's exit read the exit valuation. -/
theorem exit_reads (c : Dev nD) (w : Fin cfg0.W) :
    (dats m 0 c).arrAt w cfg0.N = (fun b : Ref sig .tc => Wx m c (Proc.devRef .tc b)) (Pipeline.arrRef spec0 w) := by
  match w with
  | ⟨0, _⟩ => exact ((dats m 0 c).arrAt_in 0 rfl _).trans ((A_eq m c 0).trans (Wx_other m c main_arg3 (by decide) (by decide)).symm)
  | ⟨1, _⟩ => exact ((dats m 0 c).arrAt_in 1 rfl _).trans ((A_eq m c 1).trans (Wx_other m c main_arg0 (by decide) (by decide)).symm)
  | ⟨2, _⟩ => exact ((dats m 0 c).arrAt_in 2 rfl _).trans ((A_eq m c 2).trans (Wx_other m c main_arg0 (by decide) (by decide)).symm)
  | ⟨3, _⟩ => exact (Wx_sums m c).symm
  | ⟨4, _⟩ => exact (Wx_counts m c).symm

set_option backward.isDefEq.respectTransparency.types false in
/-- THE REGION. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c.tc : Thread nD τ) (Pipeline.ucRefs τ sig) (V₀ m c) ∗ R c)
  post c := iprop(StableHlo.held (c.tc : Thread nD τ) (Pipeline.ucRefs τ sig) (Wx m c) ∗ R c)
  X c := iprop(∃ r, prngReg c r)
  Y c := iprop(∃ r, prngReg c r)
  Z c := Pipeline.unscopedRest spec0 c (V m c)
  hentry c := by
    rw [show StableHlo.held (c.tc : Thread nD τ) (Pipeline.ucRefs τ sig) (V₀ m c) = unscopedBufs c (V m c)
      from (Pipeline.unscopedBufs_held c (V₀ m c)).symm,
      Pipeline.unscopedBufs_split₀ cfgs 0 winFacts₀0.arr_unscoped c (V m c)]
    iintro ⟨⟨⟨Hab, Hrest⟩, Hp, HO⟩, -, -⟩
    ihave Ha := (arrays_iff_arrBufs m c (V m c) (fun w => (dats m 0 c).arrAt w 0) rfl rfl rfl rfl rfl).1 $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c.tc : Thread nD τ) (Pipeline.ucRefs τ sig) (Wx m c) = unscopedBufs c (fun b => Wx m c (Proc.devRef .tc b))
      from (Pipeline.unscopedBufs_held c (Wx m c)).symm,
      Pipeline.unscopedBufs_split₀ cfgs 0 winFacts₀0.arr_unscoped c (fun b => Wx m c (Proc.devRef .tc b))]
    have hrest : (Pipeline.unscopedRest spec0 c (fun b => Wx m c (Proc.devRef .tc b)) : sProp 𝕄) = Pipeline.unscopedRest spec0 c (V m c) := by
      unfold Pipeline.unscopedRest
      refine bigSep_congr fun b hb => ?_
      have hb' : b ∉ Finset.univ.image (Pipeline.arrRef spec0) := (Finset.mem_sdiff.mp hb).2
      rw [image_arrRef] at hb'
      dsimp only
      rw [Wx_other m c b (fun e => hb' (by rw [e]; decide)) (fun e => hb' (by rw [e]; decide))]
    rw [hrest]
    iintro ⟨Ha, HO, HY, HZ⟩
    ihave Hab := (arrays_iff_arrBufs m c (fun b => Wx m c (Proc.devRef .tc b)) (fun w => (dats m 0 c).arrAt w cfg0.N)
      (exit_reads m c 0) (exit_reads m c 1) (exit_reads m c 2) (exit_reads m c 3) (exit_reads m c 4)).2 $$ Ha
    imodintro
    isplitl [Hab HZ]
    · isplitl [Hab] <;> iassumption
    isplitl [HY]; · iexact HY
    unfold Pipeline.Dat.owesAt Pipeline.owesWithin
    icases HO with ⟨%W, -, HO⟩; iexists W; iexact HO

/-- @main as segments: the region, then the seven host stretches. -/
abbrev segs : List (Pipeline.Seg (pcfgs (F := F)) adm (dats m) () defs₀ Variants.none L lv) :=
  [.region (reg0 m), .host (hseg hostOps1 hostOps1_sub hf1 (Wx m)), .host (hseg hostOps1_1 hostOps1_1_sub hf1_1 (W1 m)),
   .host (hseg hostOps1_2 hostOps1_2_sub hf1_2 (W2 m)), .host (hseg hostOps1_3 hostOps1_3_sub hf1_3 (W3 m)),
   .host (hseg hostOps1_4 hostOps1_4_sub hf1_4 (W4 m)), .host (hseg hostOps1_5 hostOps1_5_sub hf1_5 (W5 m)),
   .host (hseg hostOps1_6 hostOps1_6_sub hf1_6 (W6 m))]

/-- What the run establishes: every unscoped buffer of every core ends at the host stretches' result. -/
def RunPost (r : PUnit × MemSt nD τ sig (Elt F)) : Prop :=
  ∀ c : Dev nD, ∀ b : Ref sig .tc, b.isScoped = false → r.2.mem ((c.tc : Thread nD τ).loc b) = W7 m c (Proc.devRef .tc b)

set_option backward.isDefEq.respectTransparency.types false in
theorem run_main : θ_run defs (onTc (τ := τ) (main (F := F))) ⟨m, fun _ => 0, ρ⟩ (RunPost m) :=
  Pipeline.θ_run_regions_kit (pcfgs (F := F)) adm (dats m) () cellOf_inj emb₁ defs₀ Variants.none L lv m ρ main (segs m)
    (fun c Q => by
      have h : main (F := F) c = Pipeline.Seg.run (segs m) := by rw [main_chain c, Pipeline.Seg.run_eq_chain]; rfl
      rw [h])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V₀ m c) ∗ R c))
    (Tₙ := fun c => iprop(StableHlo.held (c.tc : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun _ => .rfl,
      fun c => by
        show iprop(StableHlo.held (c.tc : Thread nD τ) (Pipeline.ucRefs τ sig) (W7 m c) ∗ R c) ⊢ _
        iintro ⟨Hh, Hp, HO⟩
        isplitr [HO]
        · isplitl [Hh] <;> iassumption
        · iexact HO⟩)
    (hinit := by
      refine Pipeline.initEach L lv fun c => ?_
      rw [show unscopedBufs c (fun b => m ((c.tc : Thread nD τ).loc b)) = StableHlo.held (c.tc : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b : Ref sig .tc, b.isScoped = false → s.mem ((c.tc : Thread nD τ).loc b) = W7 m c (Proc.devRef .tc b))
    (hfin := fun c s' => by
      rw [show StableHlo.held (c.tc : Thread nD τ) (Pipeline.ucRefs τ sig) (W7 m c) = unscopedBufs c (fun b => W7 m c (Proc.devRef .tc b))
        from (Pipeline.unscopedBufs_held c (W7 m c)).symm]
      unfold unscopedBufs
      iintro ⟨⟨Hh, -⟩, HSI⟩
      ihave Hr := (pointsTo_read_all (Finset.univ.filter fun b : Ref sig .tc => ¬ b.isScoped) (fun b => (c.tc : Thread nD τ).loc b)
        (fun b => W7 m c (Proc.devRef .tc b)) s') $$ [Hh HSI]
      · isplitl [Hh] <;> iassumption
      icases Hr with ⟨%hr, HSI⟩
      imodintro
      isplitr
      · ipureintro; intro b hb; exact hr b (Finset.mem_filter.mpr ⟨Finset.mem_univ _, by simp [hb]⟩)
      iexact HSI)
    (hQ := fun _ h => h)

end Cert.KernelIdeal.Hand

end
-- ==== Proof.KI.Frame.lean ====
/-
  Reading the run's post. No host stretch after the region writes an argument array, so each reaches the end as
  launched; and the result buffer holds the seven stretches' composed function of the sums and counts arrays the region
  left and of the two centre tables: the first thousand rows of the sums, twice the first thousand entries of row 0 of
  the counts, and then the tail shared with the reference.
-/
import proofs.«426958_j86199993630993_3_alg».proof.Proof.KI.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

theorem W7_arg0 (c : Dev nD) : W7 m c (Proc.devRef .tc main_arg0) = m ((c.tc : Thread nD τ).loc main_arg0) := by
  unfold W7 W6 W5 W4 W3 W2 W1
  after_results_simp
  exact Wx_other m c main_arg0 (by decide) (by decide)

theorem W7_arg1 (c : Dev nD) : W7 m c (Proc.devRef .tc main_arg1) = m ((c.tc : Thread nD τ).loc main_arg1) := by
  unfold W7 W6 W5 W4 W3 W2 W1
  after_results_simp
  exact Wx_other m c main_arg1 (by decide) (by decide)

theorem W7_arg2 (c : Dev nD) : W7 m c (Proc.devRef .tc main_arg2) = m ((c.tc : Thread nD τ).loc main_arg2) := by
  unfold W7 W6 W5 W4 W3 W2 W1
  after_results_simp
  exact Wx_other m c main_arg2 (by decide) (by decide)

theorem W7_arg3 (c : Dev nD) : W7 m c (Proc.devRef .tc main_arg3) = m ((c.tc : Thread nD τ).loc main_arg3) := by
  unfold W7 W6 W5 W4 W3 W2 W1
  after_results_simp
  exact Wx_other m c main_arg3 (by decide) (by decide)

/-- THE FRAME: the program runs to the end without fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c main_arg0 rfl).trans (W7_arg0 m c), (h c main_arg1 rfl).trans (W7_arg1 m c),
    (h c main_arg2 rfl).trans (W7_arg2 m c), (h c main_arg3 rfl).trans (W7_arg3 m c)⟩) (run_main m ρ)

end Cert.KernelIdeal.Hand

end
-- ==== Proof.Spec.lean ====
/-
  The mathematics both programs compute, over the extended reals. With `l` the 32768 labels and `x` the 65536 × 1024
  samples (two crops of 32768 rows carrying the same labels), class `p`'s feature sum in column `q` is the sum over the
  rows `r` labelled `p` of `x[r, q] + x[32768 + r, q]`, and its count the number of such rows (each counted twice by
  the reference, whose label list is the labels tiled twice). A label is compared as a signed word with the class
  number; the kernel compares it with the class number's word, which is the same test for class numbers below 2³¹.
  Everything after the sums and counts is one function of them and the two centre tables, shared by both programs.
-/
import proofs.«426958_j86199993630993_3_alg».proof.KernelIdeal
import proofs.«426958_j86199993630993_3_alg».proof.Proof.Gen.KernelIdeal
import Idealize.ShloMosaic.PureOps.Ideal
import Idealize.ShloMosaic.Lib.ValueIdx

noncomputable section

namespace Cert.Spec

open Cert.KernelIdeal Idealize.ShloMosaic Idealize.ShloMosaic.ValueIdx

/-- Row `r` of the first crop and row `32768 + r` of the second. -/
abbrev row0 (r : Fin 32768) : Fin 65536 := ⟨r.val, by omega⟩
abbrev row1 (r : Fin 32768) : Fin 65536 := ⟨r.val + 32768, by omega⟩

/-- "Row `r` carries label `p`", the label read as a signed word. -/
abbrev hasLabel (l : S32768.Idx → BitVec 32) (r : Fin 32768) (p : ℕ) : Prop := (l (ix1 r)).toInt = (p : ℤ)

/-- Class `p`'s feature sum in column `q`. -/
def sumsG (l : S32768.Idx → BitVec 32) (x : S65536x1024.Idx → EReal) (p : ℕ) (q : Fin 1024) : EReal :=
  ∑ r : Fin 32768, if hasLabel l r p then x (ix2 (row0 r) q) + x (ix2 (row1 r) q) else 0

/-- The number of rows labelled `p`, as an extended real. -/
def countG (l : S32768.Idx → BitVec 32) (p : ℕ) : EReal :=
  ∑ r : Fin 32768, if hasLabel l r p then (1 : EReal) else 0

/-- The signed test against a class number is the word test, for class numbers below 2³¹. -/
theorem toInt_eq_iff (v : BitVec 32) (p : ℕ) (hp : p < 2 ^ 31) : v.toInt = (p : ℤ) ↔ v = BitVec.ofNat 32 p := by
  constructor
  · intro h
    apply BitVec.eq_of_toNat_eq
    rw [BitVec.toNat_ofNat]
    have := v.isLt
    rw [BitVec.toInt_eq_toNat_cond] at h
    split at h <;> omega
  · rintro rfl
    rw [BitVec.toInt_eq_toNat_cond, BitVec.toNat_ofNat]
    have : p % 2 ^ 32 = p := Nat.mod_eq_of_lt (by omega)
    rw [this]
    split <;> omega

variable [Facts] {F : FTy → Type} [FloatOps F]
open Facts₀ Facts

/-- Everything both programs do after the per-class sums and counts: the class mean, the momentum update of the image
    centres, its row normalisation, the masked squared distance to the sketch centres, averaged over the classes present. -/
def tailCore (sums : FVec F S1000x1024 .f32) (counts : FVec F S1000 .f32) (ci cs : FVec F S1000x1024 .f32) : FVec F S_ .f32 :=
  let present : IVec S1000 1 := cmpf .ogt counts (broadcastInDim S1000 ![] bcast_S_S1000 (constant S_ .f32 0x00000000#32))
  let denom : FVec F S1000x1024 .f32 := broadcastInDim S1000x1024 ![0, 1] bcast_S1000x1_S1000x1024_0_1 (broadcastInDim S1000x1 ![0] bcast_S1000_S1000x1_0
    (maximumf counts (broadcastInDim S1000 ![] bcast_S_S1000 (constant S_ .f32 0x3F800000#32))))
  let upd : FVec F S1000x1024 .f32 := addf (mulf ci (broadcastInDim S1000x1024 ![] bcast_S_S1000x1024 (constant S_ .f32 0x3F666666#32)))
    (mulf (Host.divf sums denom) (broadcastInDim S1000x1024 ![] bcast_S_S1000x1024 (constant S_ .f32 0x3DCCCCCD#32)))
  let nrm : FVec F S1000x1024 .f32 := broadcastInDim S1000x1024 ![0, 1] bcast_S1000x1_S1000x1024_0_1 (Host.sqrt (broadcastInDim S1000x1 ![0] bcast_S1000_S1000x1_0
    (Host.reduceAdd (mulf upd upd) (constant S_ .f32 0x00000000#32) reducesTo_S1000x1024_S1000_d1 h_S_)))
  let newImg : FVec F S1000x1024 .f32 := select (broadcastInDim S1000x1024 ![0, 1] bcast_S1000x1_S1000x1024_0_1 (broadcastInDim S1000x1 ![0] bcast_S1000_S1000x1_0 present))
    (Host.divf upd nrm) ci
  let diff : FVec F S1000x1024 .f32 := subf newImg cs
  let perCls : FVec F S1000 .f32 := Host.reduceAdd (mulf diff diff) (constant S_ .f32 0x00000000#32) reducesTo_S1000x1024_S1000_d1 h_S_
  let nPresent : FVec F S_ .f32 := Host.reduceAdd (uitofp .f32 present) (constant S_ .f32 0x00000000#32) reducesTo_S1000_S_d0 h_S_
  let masked : FVec F S1000 .f32 := select present perCls (broadcastInDim S1000 ![] bcast_S_S1000 (id (constant S_ .f32 0x00000000#32)))
  Host.divf (Host.reduceAdd masked (constant S_ .f32 0x00000000#32) reducesTo_S1000_S_d0 h_S_) nPresent

end Cert.Spec

end
-- ==== Proof.KI.Result.lean ====
/-
  The result buffer at the end of the run: the seven host stretches' composed function of what the region left. It
  is the tail shared with the reference, applied to the first thousand rows of the sums array, to twice the first
  thousand entries of the counts array's row 0, and to the two centre tables.
-/
import proofs.«426958_j86199993630993_3_alg».proof.Proof.KI.Frame
import proofs.«426958_j86199993630993_3_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
open Facts₀ Facts

variable (m : (ℓ : Loc nD τ sig) → Buf (Elt F) ℓ)

/-- The per-class sums the host tail starts from: the padded array's first thousand rows. -/
def kSums (S : FVec F S1024x1024 .f32) : FVec F S1000x1024 .f32 := extractStridedSlice S1000x1024 ![0, 0] S Facts₀.slices_S1024x1024_S1000x1024_0_0

/-- The per-class counts the host tail starts from: row 0's first thousand entries, doubled. -/
def kCounts (K : FVec F S16x1024 .f32) : FVec F S1000 .f32 :=
  mulf (shapeCast S1000 (extractStridedSlice S1x1000 ![0, 0] K Facts₀.slices_S16x1024_S1x1000_0_0) Facts₀.shapeCasts_S1x1000_S1000)
    (broadcastInDim S1000 ![] Facts₀.bcast_S_S1000 (constant S_ .f32 0x40000000#32))

set_option maxRecDepth 8192 in
set_option maxHeartbeats 2000000 in
theorem W7_res (c : Dev nD) :
    W7 m c (Proc.devRef .tc main_v30)
      = Cert.Spec.tailCore (F := F) (kSums (sumsFull m c)) (kCounts (countsFull m c))
          (m ((c.tc : Thread nD τ).loc main_arg1)) (m ((c.tc : Thread nD τ).loc main_arg2)) := by
  unfold W7 W6 W5 W4 W3 W2 W1
  after_results_simp <;> (try simp only [TRef.ofBuf, TRef.toBuf, cast_eq])
  rw [Wx_sums, Wx_counts, Wx_other m c main_arg1 (by decide) (by decide), Wx_other m c main_arg2 (by decide) (by decide)]
  unfold Cert.Spec.tailCore kSums kCounts
  rfl

end Cert.KernelIdeal.Hand

end
-- ==== Proof.LibHostIndex.lean ====
/-
  Index operations of a host program on a FLAT array, read at an index.

  A gather of a flat array at a column of start indices (what x[idx] of a flat array lowers to when idx is flat) is the
  array at the start index, read signed and clamped. A scatter into a flat array at a column of scatter indices lands
  update e at the index the e-th scatter index names, read signed, when that is inside the array. From the second:
  the integer scatter with an associative, commutative body is a fold per element; with the body + and every update 1
  over zeros it COUNTS the updates that land at the element; the accumulating float scatter over the extended reals is
  the operand plus the sum of the updates that land there, as a sum over the update positions.
-/
import Idealize.ShloMosaic.PureOps.Ideal
import Idealize.ShloMosaic.PureOps.Contract
import Idealize.ShloMosaic.Lib.ValueIdx

noncomputable section

open scoped BigOperators

namespace Cert.Lib.HostIndex

open Idealize.ShloMosaic Idealize.ShloMosaic.ValueIdx

/-- A rank-1 index's coordinate is below the extent. -/
theorem idx1_lt {n : Nat} (j : (⟨1, ![n]⟩ : Shape).Idx) : (j 0).val < n := (j 0).isLt

/-- A rank-1 index set is its coordinate range. -/
def idxEquiv1 {n : Nat} : (⟨1, ![n]⟩ : Shape).Idx ≃ Fin n where
  toFun i := ⟨(i 0).val, idx1_lt i⟩
  invFun a := ix1 a
  left_inv i := (eq_ix1 i).symm
  right_inv _ := rfl

/-- A sum over the positions of a flat array that satisfy a condition, as a sum over the coordinate. -/
theorem sum_filter_idx1 {M : Type*} [AddCommMonoid M] {n : Nat} (p : (⟨1, ![n]⟩ : Shape).Idx → Prop) [DecidablePred p]
    (f : (⟨1, ![n]⟩ : Shape).Idx → M) :
    ∑ j ∈ Finset.univ.filter p, f j = ∑ e ∈ Finset.univ.filter (fun e : Fin n => p (ix1 e)), f (ix1 e) := by
  rw [Finset.sum_filter, Finset.sum_filter, ← Equiv.sum_comp (idxEquiv1 (n := n)).symm]
  rfl

/-- The number of positions of a flat array that satisfy a condition, counted over the coordinate. -/
theorem card_filter_idx1 {n : Nat} (p : (⟨1, ![n]⟩ : Shape).Idx → Prop) [DecidablePred p] :
    (Finset.univ.filter p).card = (Finset.univ.filter (fun e : Fin n => p (ix1 e))).card := by
  rw [Finset.card_eq_sum_ones, Finset.card_eq_sum_ones]
  exact sum_filter_idx1 p fun _ => 1

/-! ## The gather of a flat array at a column of start indices -/

section Take
variable {α : Type}

/-- The dimension numbers of x[idx] for a flat operand [N] and start indices [R, 1]: result [R]. -/
abbrev take1Dims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position y: the operand at the start index of row y, read signed and clamped into [0, N - 1]. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (⟨(y 0).val, idx1_lt y⟩ : Fin R) (0 : Fin 1))).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (⟨(y 0).val, idx1_lt y⟩ : Fin R) (0 : Fin 1) := by
    funext b; refine Fin.ext ?_
    match b with
    | ⟨0, _⟩ => rfl
    | ⟨1, _⟩ => rfl
  rw [hsi]
  rfl

end Take

/-! ## The scatter into a flat array at a column of scatter indices -/

section Put

/-- The dimension numbers of x.at[idx] for a flat operand [N], scatter indices [R, 1] and updates [R]. -/
abbrev put1Dims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The window of update j starts at the scatter index of row j, read signed. -/
theorem put1_start (j : (⟨1, ![R]⟩ : Shape).Idx) (idx : IVec ⟨2, ![R, 1]⟩ w) :
    (put1Dims N R wf).start j idx 0 = (idx (ix2 (⟨(j 0).val, idx1_lt j⟩ : Fin R) (0 : Fin 1))).toInt := by
  unfold ScatterDims.start
  rw [dif_pos (show (0 : Fin 1) ∈ (put1Dims N R wf).scatterDimsToOperandDims from List.mem_singleton.mpr rfl)]
  have hsi : (put1Dims N R wf).siIdx j ⟨List.idxOf (0 : Fin 1) (put1Dims N R wf).scatterDimsToOperandDims,
      List.idxOf_lt_length_iff.2 (List.mem_singleton.mpr rfl)⟩ = ix2 (⟨(j 0).val, idx1_lt j⟩ : Fin R) (0 : Fin 1) := by
    funext b; refine Fin.ext ?_
    match b with
    | ⟨0, _⟩ => rfl
    | ⟨1, _⟩ => rfl
  rw [hsi]

/-- The window has the one element. -/
theorem put1_window (j : (⟨1, ![R]⟩ : Shape).Idx) : (put1Dims N R wf).window j 0 = 0 := by
  unfold ScatterDims.window
  rw [dif_neg]
  simp [ScatterDims.sKept, Shape.kept, List.mem_filter, List.mem_finRange]

/-- Update j lands at position i exactly when the scatter index of row j, read signed, is i's coordinate. -/
theorem put1_resultIdx?_eq_some_iff (j : (⟨1, ![R]⟩ : Shape).Idx) (idx : IVec ⟨2, ![R, 1]⟩ w) (i : (⟨1, ![N]⟩ : Shape).Idx) :
    (put1Dims N R wf).resultIdx? j idx = some i
      ↔ (idx (ix2 (⟨(j 0).val, idx1_lt j⟩ : Fin R) (0 : Fin 1))).toInt = ((i 0).val : ℤ) := by
  have hi := idx1_lt i
  unfold ScatterDims.resultIdx?
  have hall : ∀ P : Fin 1 → Prop, (∀ a, P a) ↔ P 0 := fun P =>
    ⟨fun h => h 0, fun h a => by obtain rfl : a = 0 := Subsingleton.elim _ _; exact h⟩
  by_cases h : ∀ a : Fin (⟨1, ![N]⟩ : Shape).rank, 0 ≤ (put1Dims N R wf).start j idx a + (put1Dims N R wf).window j a ∧
      (put1Dims N R wf).start j idx a + (put1Dims N R wf).window j a < (⟨1, ![N]⟩ : Shape).size a
  · rw [dif_pos h]
    have h0 := h 0
    rw [put1_start, put1_window] at h0
    constructor
    · intro he
      have := congrArg (fun o : Option (⟨1, ![N]⟩ : Shape).Idx => o.map fun k => (k 0).val) he
      simp only [Option.map_some] at this
      have e := Option.some.inj this
      simp only [put1_start, put1_window] at e
      omega
    · intro he
      congr 1
      funext a
      obtain rfl : a = 0 := Subsingleton.elim _ _
      refine Fin.ext ?_
      show ((put1Dims N R wf).start j idx 0 + (put1Dims N R wf).window j 0).toNat = (i 0).val
      rw [put1_start, put1_window]
      omega
  · rw [dif_neg h]
    constructor
    · intro he; exact absurd he (by simp)
    · intro he
      exfalso
      apply h
      intro a
      obtain rfl : a = 0 := Subsingleton.elim _ _
      rw [put1_start, put1_window]
      have : (⟨1, ![N]⟩ : Shape).size 0 = N := rfl
      rw [this]
      omega

end Put

/-! ## The integer scatter as a fold per element, and as a count -/

section Fold
variable {α ι κ : Type} [DecidableEq ι]

/-- A fold of "update the element the step names" read at one element is the fold of the steps that name it. -/
theorem foldl_step_apply (step : (ι → α) → κ → ι → α) (g : κ → Option ι) (f : α → α → α) (upd : κ → α)
    (hstep : ∀ r n i, step r n i = if g n = some i then f (r i) (upd n) else r i) (i : ι) :
    ∀ (l : List κ) (x : ι → α),
      (l.foldl step x) i = l.foldl (fun a n => if g n = some i then f a (upd n) else a) (x i)
  | [], _ => rfl
  | n :: l, x => by
    rw [List.foldl_cons, List.foldl_cons, foldl_step_apply step g f upd hstep i l, hstep]

/-- Adding 1 at the steps that satisfy a condition counts them. -/
theorem foldl_count (p : κ → Prop) [DecidablePred p] :
    ∀ (l : List κ) (a : BitVec 32),
      l.foldl (fun a n => if p n then a + 1#32 else a) a = a + BitVec.ofNat 32 (l.countP fun n => decide (p n))
  | [], a => by simp
  | n :: l, a => by
    rw [List.foldl_cons, foldl_count p l, List.countP_cons]
    by_cases h : p n
    · simp only [h, if_true, decide_true]
      rw [BitVec.add_assoc]
      congr 1
      apply BitVec.eq_of_toNat_eq
      simp [BitVec.toNat_add, BitVec.toNat_ofNat, Nat.add_comm]
    · simp [h]

end Fold

/-- The steps of a list of all positions that satisfy a condition are as many as the positions that do. -/
theorem countP_finRange {n : Nat} (p : Fin n → Prop) [DecidablePred p] :
    (List.finRange n).countP (fun k => decide (p k)) = (Finset.univ.filter p).card := by
  rw [List.countP_eq_length_filter]
  have : (Finset.univ.filter p : Finset (Fin n)) = ((List.finRange n).filter fun k => decide (p k)).toFinset := by
    ext k; simp
  rw [this, List.toFinset_card_of_nodup ((List.nodup_finRange n).filter _)]

section IntScatter
variable {s si u : Shape} {w : Nat}

/-- The integer scatter read at an element: the fold, over the update positions in row-major order, of the updates that
    land there. -/
theorem scatter_apply (d : ScatterDims s si u) (f : BitVec 32 → BitVec 32 → BitVec 32) (x : s.Idx → BitVec 32)
    (idx : IVec si w) (upd : u.Idx → BitVec 32) (i : s.Idx) :
    Host.scatter d f x idx upd i
      = (List.finRange u.numel).foldl (fun a n => if d.resultIdx? (u.rowMajor.symm n) idx = some i
          then f a (upd (u.rowMajor.symm n)) else a) (x i) := by
  unfold Host.scatter
  refine foldl_step_apply _ (fun n => d.resultIdx? (u.rowMajor.symm n) idx) f (fun n => upd (u.rowMajor.symm n)) ?_ i _ x
  intro r n i'
  cases hg : d.resultIdx? (u.rowMajor.symm n) idx with
  | none => simp
  | some i₀ =>
    by_cases h : i' = i₀
    · subst h; simp
    · have h' : ¬ (i₀ = i') := fun e => h e.symm
      simp [h, h']

/-- The scatter of ones into zeros with the body + counts, at each element, the updates that land there. -/
theorem scatter_ones_apply (d : ScatterDims s si u) (idx : IVec si w) (i : s.Idx) :
    Host.scatter d IntOp.addi (fun _ => 0#32) idx (fun _ => 1#32) i
      = BitVec.ofNat 32 (Finset.univ.filter fun j : u.Idx => d.resultIdx? j idx = some i).card := by
  rw [scatter_apply]
  show (List.finRange u.numel).foldl (fun a n => if d.resultIdx? (u.rowMajor.symm n) idx = some i then a + 1#32 else a) 0#32 = _
  rw [foldl_count (fun n => d.resultIdx? (u.rowMajor.symm n) idx = some i), countP_finRange, BitVec.zero_add]
  congr 1
  exact Finset.card_bij (fun n _ => u.rowMajor.symm n) (fun n hn => by simpa using hn)
    (fun a _ b _ h => u.rowMajor.symm.injective h)
    (fun j hj => ⟨u.rowMajor j, by simpa using hj, by simp⟩)

end IntScatter

end Cert.Lib.HostIndex

end
-- ==== Proof.LibRowScatter.lean ====
/-
  The accumulating scatter of ROWS, read at an index.

  For an operand [N, C], a column [R, 1] of scatter indices and updates [R, C] (the update's axis 1 is the window axis,
  the operand's axis 0 the inserted one the scatter index names), update element (n, q') lands on operand element
  (p, q) exactly when the scatter index of row n, read signed, is p's number and q' = q; an index outside 0 … N - 1
  lands nowhere. So over the extended reals the accumulating scatter at (p, q) is the operand there plus the sum, over
  the update rows n whose scatter index is p, of the update at (n, q).
-/
import Idealize.ShloMosaic.PureOps.Ideal
import Idealize.ShloMosaic.PureOps.Contract
import Idealize.ShloMosaic.Lib.ValueIdx

noncomputable section

open scoped BigOperators

namespace Cert.Lib.RowScatter

open Idealize.ShloMosaic Idealize.ShloMosaic.ValueIdx

/-- A sum over the elements that satisfy a condition is the sum of the terms switched by an equivalent condition. -/
theorem sum_filter_of_iff {ι M : Type*} [AddCommMonoid M] (s : Finset ι) (P Q : ι → Prop) [DecidablePred P] [DecidablePred Q]
    (h : ∀ j, P j ↔ Q j) (f : ι → M) : ∑ j ∈ s.filter P, f j = ∑ j ∈ s, if Q j then f j else 0 := by
  rw [Finset.sum_filter]
  refine Finset.sum_congr rfl fun j _ => ?_
  by_cases hq : Q j
  · rw [if_pos hq, if_pos ((h j).mpr hq)]
  · rw [if_neg hq, if_neg (mt (h j).mp hq)]

/-- The dimension numbers of x.at[idx].add(u) for an operand [N, C], scatter indices [R, 1] and updates [R, C]. -/
abbrev putRowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the operand's row axis the window of update element j starts at the scatter index of j's row, read signed. -/
theorem putRow_start0 (j : (⟨2, ![R, C]⟩ : Shape).Idx) (idx : IVec ⟨2, ![R, 1]⟩ w) :
    (putRowDims N R C wf).start j idx 0 = (idx (ix2 (⟨(j 0).val, idx2_lt0 j⟩ : Fin R) (0 : Fin 1))).toInt := by
  unfold ScatterDims.start
  rw [dif_pos (show (0 : Fin 2) ∈ (putRowDims N R C wf).scatterDimsToOperandDims from List.mem_singleton.mpr rfl)]
  have hsi : (putRowDims N R C wf).siIdx j ⟨List.idxOf (0 : Fin 2) (putRowDims N R C wf).scatterDimsToOperandDims,
      List.idxOf_lt_length_iff.2 (List.mem_singleton.mpr rfl)⟩ = ix2 (⟨(j 0).val, idx2_lt0 j⟩ : Fin R) (0 : Fin 1) := by
    funext b; refine Fin.ext ?_
    match b with
    | ⟨0, _⟩ => rfl
    | ⟨1, _⟩ => rfl
  rw [hsi]

/-- On the operand's column axis the window starts at 0. -/
theorem putRow_start1 (j : (⟨2, ![R, C]⟩ : Shape).Idx) (idx : IVec ⟨2, ![R, 1]⟩ w) :
    (putRowDims N R C wf).start j idx 1 = 0 := by
  unfold ScatterDims.start
  rw [dif_neg]
  intro h
  exact absurd (List.mem_singleton.mp h) (show (1 : Fin 2) ≠ 0 by decide)

/-- The window has one row. -/
theorem putRow_window0 (j : (⟨2, ![R, C]⟩ : Shape).Idx) : (putRowDims N R C wf).window j 0 = 0 := by
  unfold ScatterDims.window
  rw [dif_neg]
  simp [ScatterDims.sKept, Shape.kept, List.mem_filter, List.mem_finRange]

/-- Across the columns the window coordinate is the update element's column. -/
theorem putRow_window1 (j : (⟨2, ![R, C]⟩ : Shape).Idx) : (putRowDims N R C wf).window j 1 = (j 1).val := by
  unfold ScatterDims.window
  have hm : (1 : Fin 2) ∈ (putRowDims N R C wf).sKept := by
    simp [ScatterDims.sKept, Shape.kept, List.mem_filter, List.mem_finRange]
  rw [dif_pos hm]
  rfl

/-- Update element j lands at operand element i exactly when the scatter index of j's row, read signed, is i's row
    number and the two are in the same column. -/
theorem putRow_resultIdx?_eq_some_iff (j : (⟨2, ![R, C]⟩ : Shape).Idx) (idx : IVec ⟨2, ![R, 1]⟩ w)
    (i : (⟨2, ![N, C]⟩ : Shape).Idx) :
    (putRowDims N R C wf).resultIdx? j idx = some i
      ↔ (idx (ix2 (⟨(j 0).val, idx2_lt0 j⟩ : Fin R) (0 : Fin 1))).toInt = ((i 0).val : ℤ) ∧ (j 1).val = (i 1).val := by
  have hi0 := idx2_lt0 i
  have hi1 := idx2_lt1 i
  have hj1 := idx2_lt1 j
  have hall : ∀ P : Fin 2 → Prop, (∀ a, P a) ↔ P 0 ∧ P 1 := fun P =>
    ⟨fun h => ⟨h 0, h 1⟩, fun h a => by
      match a with
      | ⟨0, _⟩ => exact h.1
      | ⟨1, _⟩ => exact h.2⟩
  have hs0 : (⟨2, ![N, C]⟩ : Shape).size 0 = N := rfl
  have hs1 : (⟨2, ![N, C]⟩ : Shape).size 1 = C := rfl
  unfold ScatterDims.resultIdx?
  by_cases h : ∀ a : Fin (⟨2, ![N, C]⟩ : Shape).rank, 0 ≤ (putRowDims N R C wf).start j idx a + (putRowDims N R C wf).window j a ∧
      (putRowDims N R C wf).start j idx a + (putRowDims N R C wf).window j a < (⟨2, ![N, C]⟩ : Shape).size a
  · rw [dif_pos h]
    have h0 := h 0
    have h1 := h 1
    rw [putRow_start0, putRow_window0] at h0
    rw [putRow_start1, putRow_window1] at h1
    constructor
    · intro he
      have e := Option.some.inj he
      have e0 := congrArg (fun k : (⟨2, ![N, C]⟩ : Shape).Idx => (k 0).val) e
      have e1 := congrArg (fun k : (⟨2, ![N, C]⟩ : Shape).Idx => (k 1).val) e
      simp only [putRow_start0, putRow_window0, putRow_start1, putRow_window1] at e0 e1
      constructor <;> omega
    · rintro ⟨he0, he1⟩
      congr 1
      funext a
      refine Fin.ext ?_
      match a with
      | ⟨0, _⟩ =>
        show ((putRowDims N R C wf).start j idx 0 + (putRowDims N R C wf).window j 0).toNat = (i 0).val
        rw [putRow_start0, putRow_window0]
        omega
      | ⟨1, _⟩ =>
        show ((putRowDims N R C wf).start j idx 1 + (putRowDims N R C wf).window j 1).toNat = (i 1).val
        rw [putRow_start1, putRow_window1]
        omega
  · rw [dif_neg h]
    constructor
    · intro he; exact absurd he (by simp)
    · rintro ⟨he0, he1⟩
      exfalso
      apply h
      rw [hall]
      rw [putRow_start0, putRow_window0, putRow_start1, putRow_window1, hs0, hs1]
      omega

/-- The accumulating scatter of rows over the extended reals, read at (p, q): the operand there plus the sum, over
    the update rows whose scatter index (read signed) is p, of the update at column q. -/
theorem hostScatterAdd_rows_apply (x : (⟨2, ![N, C]⟩ : Shape).Idx → EReal) (idx : IVec ⟨2, ![R, 1]⟩ w)
    (upd : (⟨2, ![R, C]⟩ : Shape).Idx → EReal) (p : Fin N) (q : Fin C) :
    Ideal.hostScatterAdd (putRowDims N R C wf) x idx upd (ix2 p q)
      = x (ix2 p q) + ∑ n : Fin R, if (idx (ix2 n (0 : Fin 1))).toInt = (p.val : ℤ) then upd (ix2 n q) else 0 := by
  unfold Ideal.hostScatterAdd
  congr 1
  rw [sum_filter_of_iff _ _ _ (fun j => putRow_resultIdx?_eq_some_iff wf j idx (ix2 p q)), sum_idx2]
  refine Finset.sum_congr rfl fun n _ => ?_
  by_cases hn : (idx (ix2 n (0 : Fin 1))).toInt = (p.val : ℤ)
  · rw [if_pos hn, Finset.sum_eq_single q]
    · exact if_pos ⟨hn, rfl⟩
    · intro b _ hb
      exact if_neg fun hc => hb (Fin.ext hc.2)
    · intro hq; exact absurd (Finset.mem_univ q) hq
  · rw [if_neg hn]
    exact Finset.sum_eq_zero fun b _ => if_neg fun hc => hn hc.1

end Cert.Lib.RowScatter

end
-- ==== Proof.RefValue.lean ====
/-
  The reference at the ideal instance. Its label list is the 32768 labels tiled twice (row `a · 32768 + r` carries
  label `l r`), made a column of scatter indices; its per-class sums are the accumulating scatter of the 65536 sample
  rows into 1000 zero rows, its counts the same scatter of ones — an index outside 0 … 999 (read signed) lands nowhere.
  So class `p`'s sum in column `q` is the sum over the rows labelled `p` of both crops' entries, and its count twice the
  number of such rows; everything after is the shared tail.
-/
import proofs.«426958_j86199993630993_3_alg».proof.Proof.RefRunP
import proofs.«426958_j86199993630993_3_alg».proof.Proof.Spec
import proofs.«426958_j86199993630993_3_alg».proof.Proof.LibHostIndex
import proofs.«426958_j86199993630993_3_alg».proof.Proof.LibRowScatter
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RefValue

open Cert.ReferenceIdeal
open Idealize.ShloMosaic Idealize.ShloMosaic.TcCoe Idealize.ShloMosaic.ValueIdx Idealize.SL.Sem
open Facts₀ Facts
open Cert.Lib.HostIndex Cert.Lib.RowScatter

/-- The scatter indices: the labels tiled twice, as a column. -/
def idxCol (l : IVec S32768 32) : IVec S65536x1 32 :=
  broadcastInDim S65536x1 ![0] bcast_S65536_S65536x1_0
    (shapeCast S65536 (broadcastInDim S2x32768 ![0, 1] bcast_S1x32768_S2x32768_0_1 (shapeCast S1x32768 l shapeCasts_S32768_S1x32768)) shapeCasts_S2x32768_S65536)

/-- The per-class sums: the sample rows scattered, accumulating, into 1000 zero rows. -/
def refSums (l : IVec S32768 32) (x : FVec Ideal S65536x1024 .f32) : FVec Ideal S1000x1024 .f32 :=
  Host.scatterAdd scatter_S1000x1024_S65536x1_S65536x1024_1_0_0_1 (broadcastInDim S1000x1024 ![] bcast_S_S1000x1024 (constant S_ .f32 0x00000000#32)) (idxCol l) x

/-- The per-class counts: ones scattered, accumulating, into 1000 zeros. -/
def refCounts (l : IVec S32768 32) : FVec Ideal S1000 .f32 :=
  Host.scatterAdd scatter_S1000_S65536x1_S65536_n_0_0_1 (broadcastInDim S1000 ![] bcast_S_S1000 (constant S_ .f32 0x00000000#32)) (idxCol l)
    (broadcastInDim S65536 ![] bcast_S_S65536 (constant S_ .f32 0x3F800000#32))

set_option maxRecDepth 8192 in
/-- The reference's result is the shared tail of its sums and counts and the two centre tables. -/
theorem res_eq (m : (ℓ : Loc nD τ sig) → Buf (Elt Ideal) ℓ) (c : Dev nD) :
    Cert.ReferenceIdeal.ValueP.res_main_v34 (F := Ideal) m c
      = Cert.Spec.tailCore (F := Ideal) (refSums (m ((c.tc : Thread nD τ).loc main_arg3)) (m ((c.tc : Thread nD τ).loc main_arg0)))
          (refCounts (m ((c.tc : Thread nD τ).loc main_arg3))) (m ((c.tc : Thread nD τ).loc main_arg1)) (m ((c.tc : Thread nD τ).loc main_arg2)) := by
  unfold Cert.ReferenceIdeal.ValueP.res_main_v34 Cert.Spec.tailCore refSums refCounts idxCol
  rfl

/-- The scatter index of row `a · 32768 + r` is the label of row `r`. -/
theorem idxCol_apply (l : IVec S32768 32) (n : Fin 65536) (a : Fin 2) (r : Fin 32768) (h : n.val = a.val * 32768 + r.val) :
    idxCol l (ix2 n (0 : Fin 1)) = l (ix1 r) := by
  unfold idxCol
  refine (broadcastInDim_apply _ _ _ _ (ix1 n) ?_).trans ?_
  · intro b
    match b with
    | ⟨0, _⟩ => rfl
  refine (shapeCast_apply _ _ _ (ix2 a r) ?_).trans ?_
  · rw [Shape.rowMajor_val_two, Shape.rowMajor_val_one]
    show a.val * 32768 + r.val = n.val
    omega
  refine (broadcastInDim_apply _ _ _ _ (ix2 (0 : Fin 1) r) ?_).trans ?_
  · intro b
    match b with
    | ⟨0, _⟩ => rfl
    | ⟨1, _⟩ => rfl
  exact shapeCast_a_1a_apply l _ 0 r

/-- A sum over the 65536 rows is the sum over the 32768 row numbers of the two crops' terms. -/
theorem sum_rows_two_crops (f : Fin 65536 → EReal) :
    ∑ n : Fin 65536, f n = ∑ r : Fin 32768, (f (Cert.Spec.row0 r) + f (Cert.Spec.row1 r)) := by
  rw [Finset.sum_add_distrib]
  refine (Fin.sum_univ_add (a := 32768) (b := 32768) f).trans ?_
  refine congrArg (fun t : EReal => ∑ r : Fin 32768, f (Cert.Spec.row0 r) + t) ?_
  refine Finset.sum_congr rfl fun r _ => congrArg f (Fin.ext ?_)
  show 32768 + r.val = r.val + 32768
  omega

/-- The accumulating scatter into a flat array over the extended reals, read at `p`: the operand there plus the
    sum of the updates whose scatter index (read signed) is `p`. -/
theorem hostScatterAdd_flat_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (p : Fin N) :
    Ideal.hostScatterAdd (put1Dims N R wf) x idx upd (ix1 p)
      = x (ix1 p) + ∑ n : Fin R, if (idx (ix2 n (0 : Fin 1))).toInt = (p.val : ℤ) then upd (ix1 n) else 0 := by
  unfold Ideal.hostScatterAdd
  congr 1
  rw [sum_filter_of_iff _ _ _ (fun j => put1_resultIdx?_eq_some_iff wf j idx (ix1 p)),
    ← Equiv.sum_comp (idxEquiv1 (n := R)).symm]
  rfl

/-- Class `p`'s sum in column `q`. -/
theorem refSums_apply (l : IVec S32768 32) (x : FVec Ideal S65536x1024 .f32) (p : Fin 1000) (q : Fin 1024) :
    refSums l x (ix2 p q) = Cert.Spec.sumsG l x p.val q := by
  unfold refSums Cert.Spec.sumsG
  refine (hostScatterAdd_rows_apply scatter_S1000x1024_S65536x1_S65536x1024_1_0_0_1_wf _ (idxCol l) x p q).trans ?_
  rw [broadcastInDim_scalar_apply, constant_apply, Ideal.ofBits_zero_f32, zero_add, sum_rows_two_crops]
  refine Finset.sum_congr rfl fun r _ => ?_
  rw [idxCol_apply l (Cert.Spec.row0 r) 0 r (by show r.val = 0 * 32768 + r.val; omega),
    idxCol_apply l (Cert.Spec.row1 r) 1 r (by show r.val + 32768 = 1 * 32768 + r.val; omega)]
  by_cases h : (l (ix1 r)).toInt = (p.val : ℤ)
  · rw [if_pos h, if_pos h, if_pos h]
  · rw [if_neg h, if_neg h, if_neg h, add_zero]

/-- Class `p`'s count: each labelled row counted once per crop. -/
theorem refCounts_apply (l : IVec S32768 32) (p : Fin 1000) :
    refCounts l (ix1 p) = Cert.Spec.countG l p.val + Cert.Spec.countG l p.val := by
  unfold refCounts Cert.Spec.countG
  refine (hostScatterAdd_flat_apply scatter_S1000_S65536x1_S65536_n_0_0_1_wf _ (idxCol l) _ p).trans ?_
  rw [broadcastInDim_scalar_apply, constant_apply, Ideal.ofBits_zero_f32, zero_add, sum_rows_two_crops,
    Finset.sum_add_distrib]
  refine congrArg₂ (· + ·) ?_ ?_
  · refine Finset.sum_congr rfl fun r _ => ?_
    rw [idxCol_apply l (Cert.Spec.row0 r) 0 r (by show r.val = 0 * 32768 + r.val; omega),
      broadcastInDim_scalar_apply, constant_apply, Ideal.ofBits_one_f32]
  · refine Finset.sum_congr rfl fun r _ => ?_
    rw [idxCol_apply l (Cert.Spec.row1 r) 1 r (by show r.val + 32768 = 1 * 32768 + r.val; omega),
      broadcastInDim_scalar_apply, constant_apply, Ideal.ofBits_one_f32]

end Cert.ReferenceIdeal.RefValue

end
-- ==== Proof.Bridge.lean ====
/-
  The two programs meet: the first thousand rows of an array holding the per-class sums are the reference's scattered
  sums, and twice the first thousand entries of row 0 of an array holding the per-class counts are the reference's
  scattered counts — entry by entry both are the sum (the doubled number) over the rows carrying that label.
-/
import proofs.«426958_j86199993630993_3_alg».proof.Proof.KI.Result
import proofs.«426958_j86199993630993_3_alg».proof.Proof.RefValue
import Idealize.ShloMosaic.Lib.ValueIdx
import Idealize.ShloMosaic.Lib.ValueLayout
import Idealize.ShloMosaic.Lib.Pipeline.Value
import Idealize.ShloMosaic.Lib.IdealHost
import Mathlib.Data.EReal.Operations

noncomputable section

namespace Cert.Proof.Bridge

open Idealize.ShloMosaic Idealize.ShloMosaic.TcCoe Idealize.ShloMosaic.ValueIdx Idealize.SL.Sem
open Cert.KernelIdeal

/-- The f32 pattern `0x40000000` is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- If every entry (p, q) of `S` is class p's sum in column q, the first thousand rows of `S` are the reference's sums. -/
theorem sums_bridge_of (S : S1024x1024.Idx → EReal) (l : S32768.Idx → BitVec 32) (x : S65536x1024.Idx → EReal)
    (hS : ∀ p q : Fin 1024, S (ix2 p q) = Cert.Spec.sumsG l x p.val q) :
    Cert.KernelIdeal.Hand.kSums (F := Ideal) S = Cert.ReferenceIdeal.RefValue.refSums l x := by
  funext i
  obtain ⟨p, q, rfl⟩ : ∃ (p : Fin 1000) (q : Fin 1024), i = ix2 p q := ⟨i 0, i 1, eq_ix2 i⟩
  refine Eq.trans ?_ (Cert.ReferenceIdeal.RefValue.refSums_apply l x p q).symm
  unfold Cert.KernelIdeal.Hand.kSums
  refine (extractStridedSlice_apply _ _ _ _ (ix2 (⟨p.val, by omega⟩ : Fin 1024) q) ?_).trans ?_
  · intro a
    match a with
    | ⟨0, _⟩ => exact (Nat.zero_add p.val).symm
    | ⟨1, _⟩ => exact (Nat.zero_add q.val).symm
  exact hS ⟨p.val, by omega⟩ q

/-- If every entry (a, p) of `K` is class p's count, twice the first thousand entries of row 0 are the reference's counts. -/
theorem counts_bridge_of (K : S16x1024.Idx → EReal) (l : S32768.Idx → BitVec 32)
    (hK : ∀ (a : Fin 16) (p : Fin 1024), K (ix2 a p) = Cert.Spec.countG l p.val) :
    Cert.KernelIdeal.Hand.kCounts (F := Ideal) K = Cert.ReferenceIdeal.RefValue.refCounts l := by
  funext i
  obtain ⟨p, rfl⟩ : ∃ p : Fin 1000, i = ix1 p := ⟨i 0, eq_ix1 i⟩
  refine Eq.trans ?_ (Cert.ReferenceIdeal.RefValue.refCounts_apply l p).symm
  unfold Cert.KernelIdeal.Hand.kCounts
  refine (mulf_apply _ _ _).trans ?_
  refine (congrArg₂ (· * ·) (?_ : _ = Cert.Spec.countG l p.val) (?_ : _ = (2 : EReal))).trans ?_
  · refine (shapeCast_1a_a_apply _ _ p).trans ?_
    refine (extractStridedSlice_apply _ _ _ _ (ix2 (0 : Fin 16) (⟨p.val, by omega⟩ : Fin 1024)) ?_).trans ?_
    · intro a
      match a with
      | ⟨0, _⟩ => rfl
      | ⟨1, _⟩ => exact (Nat.zero_add p.val).symm
    exact hK 0 ⟨p.val, by omega⟩
  · rw [broadcastInDim_scalar_apply, constant_apply, ofBits_two_f32]
  · show Cert.Spec.countG l p.val * (2 : EReal) = _
    rw [← one_add_one_eq_two, EReal.left_distrib_of_nonneg zero_le_one zero_le_one, mul_one]

end Cert.Proof.Bridge

end
-- ==== Proof.KI.Pieces.lean ====
/-
  What each case of the body leaves in an accumulator, as ONE pure term of what it loaded: in the resetting case the
  contribution added to the zero fill, in the carrying case the contribution added to what the point before left.
-/
import proofs.«426958_j86199993630993_3_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle, of rank two and of rank one, as the constant-zero function. -/
theorem hz2 : (![0, 0] : Fin 2 → Nat) = fun _ => 0 := funext fun a => by fin_cases a <;> rfl
theorem hz1 : (![0] : Fin 1 → Nat) = fun _ => 0 := funext fun a => by fin_cases a; rfl

/-- Resetting case, sums: the one-hot contraction of the two crops' sum, added to the zero fill. -/
theorem out0_A_3_eq (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i) (x0 : Vec F S2048 .i32) (x1 : Vec F S2048x512 .f32) (x2 : Vec F S2048x512 .f32) :
    out0_A_3 c i arg2 harg2 arg3 harg3 arg4 harg4 arg5 harg5 arg6 harg6 hc0 x0 x1 x2 = k0_pay4 x0 x1 x2 (k0_pay1 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1024x512) hz2, View.readCov_unit_zero (S := S1024x512) _ hz2]
  simp only [View.readAt_eq_ld, harg2.read_unread, harg3.read_unread, harg4.read_unread,
    View.ld_unit_zero (S := S2048) hz1, View.ld_unit_zero (S := S2048x512) hz2]

/-- Resetting case, counts: the ones-row contraction of the one-hot block, added to the zero fill. -/
theorem out0_A_4_eq (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : cond0_0 i) (x0 : Vec F S2048 .i32) (x1 : Vec F S2048x512 .f32) (x2 : Vec F S2048x512 .f32) :
    out0_A_4 c i arg2 harg2 arg3 harg3 arg4 harg4 arg5 harg5 arg6 harg6 hc0 x0 x1 x2 = k0_pay5 x0 (k0_pay2 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S8x1024) hz2, View.readCov_unit_zero (S := S8x1024) _ hz2]
  simp only [View.readAt_eq_ld, harg2.read_unread, View.ld_unit_zero (S := S2048) hz1]

/-- Carrying case, sums: the contribution added to what the point before left. -/
theorem out0_B_3_eq (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i) (x0 : Vec F S2048 .i32) (x1 : Vec F S2048x512 .f32) (x2 : Vec F S2048x512 .f32) (xo3 : Vec F S1024x512 .f32) (xo4 : Vec F S8x1024 .f32) :
    out0_B_3 c i arg2 harg2 arg3 harg3 arg4 harg4 arg5 harg5 arg6 harg6 hc0 x0 x1 x2 xo3 xo4 = k0_pay4 x0 x1 x2 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_unit_zero (S := S1024x512) hz2]
  simp only [View.readAt_eq_ld, harg2.read_unread, harg3.read_unread, harg4.read_unread, harg5.read_unread,
    View.ld_unit_zero (S := S2048) hz1, View.ld_unit_zero (S := S2048x512) hz2, View.ld_unit_zero (S := S1024x512) hz2]

/-- Carrying case, counts. -/
theorem out0_B_4_eq (c : Dev nD) (i : grid0.Coords) (arg2 : Memref sig .tc .vmem S2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S8x1024 .f32) (harg6 : arg6.IsWhole) (hc0 : ¬cond0_0 i) (x0 : Vec F S2048 .i32) (x1 : Vec F S2048x512 .f32) (x2 : Vec F S2048x512 .f32) (xo3 : Vec F S1024x512 .f32) (xo4 : Vec F S8x1024 .f32) :
    out0_B_4 c i arg2 harg2 arg3 harg3 arg4 harg4 arg5 harg5 arg6 harg6 hc0 x0 x1 x2 xo3 xo4 = k0_pay5 x0 xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero (S := S8x1024) hz2]
  simp only [View.readAt_eq_ld, harg2.read_unread, harg6.read_unread,
    View.ld_unit_zero (S := S2048) hz1, View.ld_unit_zero (S := S8x1024) hz2]

end Cert.KernelIdeal.Hand

end
-- ==== Proof.KV.Payload.lean ====
/-
  The body's arithmetic at an index, over the extended reals. The one-hot block has a 1 where the row's label is the
  column's class number and a 0 elsewhere (the changes of float format are the identity); contracting it against the
  two crops' sum adds, for class `p`, the rows labelled `p`; contracting a row of ones against it counts them.
-/
import proofs.«426958_j86199993630993_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.KV

open Cert.KernelIdeal Cert.KernelIdeal.Gen
open Idealize.ShloMosaic Idealize.ShloMosaic.ValueIdx

/-- The one-hot entry: 1 if row `r`'s label is the word of class number `p`, else 0. -/
abbrev hot (v3 : Vec Ideal S2048 .i32) (r : Fin 2048) (p : Fin 1024) : EReal := if v3 (ix1 r) = BitVec.ofNat 32 p.val then 1 else 0

theorem pay1_apply (j : S1024x512.Idx) : k0_pay1 (F := Ideal) j = 0 := by
  exact Ideal.ofBits_zero_f32

theorem pay2_apply (j : S8x1024.Idx) : k0_pay2 (F := Ideal) j = 0 := by
  exact Ideal.ofBits_zero_f32

/-- A one-bit word widened to 32 bits and read as a signed integer, as an extended real: 1 or 0. -/
theorem bit_value (a b : BitVec 32) :
    (((((IntOp.cmpi .eq a b).setWidth 32).toInt : ℤ) : ℝ) : EReal) = if a = b then 1 else 0 := by
  by_cases h : a = b
  · subst h
    rw [if_pos rfl]
    have : IntOp.cmpi .eq a a = 1#1 := by simp [IntOp.cmpi]
    rw [this]
    norm_num
  · rw [if_neg h]
    have : IntOp.cmpi .eq a b = 0#1 := by
      have hb : (a == b) = false := beq_eq_false_iff_ne.mpr h
      simp [IntOp.cmpi, hb]
    rw [this]
    norm_num

/-- The labels column laid along every class column, read at (r, p): row r's label. -/
theorem labels_apply (v3 : Vec Ideal S2048 .i32) (r : Fin 2048) (p : Fin 1024) :
    broadcastTo S2048x1024 (shapeCast S2048x1 v3 shapeCasts_S2048_S2048x1) broadcasts_S2048x1_S2048x1024 (ix2 r p) = v3 (ix1 r) := by
  refine (broadcastTo_apply _ _ (ix2 r p) (ix2 r (0 : Fin 1)) (fun a => match a with | ⟨0, _⟩ => rfl | ⟨1, _⟩ => rfl)).trans ?_
  refine shapeCast_apply _ _ (ix2 r (0 : Fin 1)) (ix1 r) ?_
  rw [Shape.rowMajor_val_one, Shape.rowMajor_val_two]
  show r.val = r.val * 1 + 0
  omega

/-- The one-hot block at (row r, class p). -/
theorem pay3_apply (v3 : Vec Ideal S2048 .i32) (r : Fin 2048) (p : Fin 1024) :
    k0_pay3 (F := Ideal) v3 (ix2 r p) = hot v3 r p := by
  unfold k0_pay3
  show (((((IntOp.cmpi .eq (broadcastTo S2048x1024 (shapeCast S2048x1 v3 shapeCasts_S2048_S2048x1) broadcasts_S2048x1_S2048x1024 (ix2 r p))
      (iota .tc S2048x1024 32 [1] iota_S2048x1024_d1_w32 (ix2 r p))).setWidth 32).toInt : ℤ) : ℝ) : EReal) = _
  rw [labels_apply, iota_single_apply, bit_value]

/-! ## The two products: which entries of the operands meet at an output entry -/

/-- The sums product contracts the rows of both operands: the left entry's row is the contraction position. -/
theorem lhs_sums_0 (j : S1024x512.Idx) (k : dot_S2048x1024_S2048x512_S1024x512_0_0_1_1_n_n.contr.Idx) :
    ((dot_S2048x1024_S2048x512_S1024x512_0_0_1_1_n_n.lhsIdx j k) 0).val = (k ⟨0, by decide⟩).val :=
  dot_S2048x1024_S2048x512_S1024x512_0_0_1_1_n_n.lhsIdx_val_of_single rfl j k

/-- … and its column is the output's row. -/
theorem lhs_sums_1 (j : S1024x512.Idx) (k : dot_S2048x1024_S2048x512_S1024x512_0_0_1_1_n_n.contr.Idx) :
    ((dot_S2048x1024_S2048x512_S1024x512_0_0_1_1_n_n.lhsIdx j k) 1).val = (j 0).val := by
  unfold DotDims.lhsIdx
  rw [dif_neg (show ¬(1 : Fin S2048x1024.rank) ∈ dot_S2048x1024_S2048x512_S1024x512_0_0_1_1_n_n.lhsBatch by decide),
    dif_pos (show (1 : Fin S2048x1024.rank) ∈ dot_S2048x1024_S2048x512_S1024x512_0_0_1_1_n_n.lhsNonContracting by decide)]
  rfl

/-- The right entry's row is the contraction position. -/
theorem rhs_sums_0 (j : S1024x512.Idx) (k : dot_S2048x1024_S2048x512_S1024x512_0_0_1_1_n_n.contr.Idx) :
    ((dot_S2048x1024_S2048x512_S1024x512_0_0_1_1_n_n.rhsIdx j k) 0).val = (k ⟨0, by decide⟩).val :=
  dot_S2048x1024_S2048x512_S1024x512_0_0_1_1_n_n.rhsIdx_val_of_single rfl j k

/-- … and its column is the output's column. -/
theorem rhs_sums_1 (j : S1024x512.Idx) (k : dot_S2048x1024_S2048x512_S1024x512_0_0_1_1_n_n.contr.Idx) :
    ((dot_S2048x1024_S2048x512_S1024x512_0_0_1_1_n_n.rhsIdx j k) 1).val = (j 1).val := by
  unfold DotDims.rhsIdx
  rw [dif_neg (show ¬(1 : Fin S2048x512.rank) ∈ dot_S2048x1024_S2048x512_S1024x512_0_0_1_1_n_n.rhsBatch by decide),
    dif_pos (show (1 : Fin S2048x512.rank) ∈ dot_S2048x1024_S2048x512_S1024x512_0_0_1_1_n_n.rhsNonContracting by decide)]
  rfl

/-- The sums product into a zero accumulator, at (p, q): the sum over the rows r of A[r, p] B[r, q]. -/
theorem sums_product_apply (A : FVec Ideal S2048x1024 .bf16) (B : FVec Ideal S2048x512 .bf16) (p : Fin 1024) (q : Fin 512) :
    matmul dot_S2048x1024_S2048x512_S1024x512_0_0_1_1_n_n none A B (constant (F := Ideal) S1024x512 .f32 0x00000000#32) (ix2 p q)
      = ∑ r : Fin 2048, A (ix2 r p) * B (ix2 r q) := by
  refine (Ideal.matmul_constant_zero_apply _ none _ _ _).trans ?_
  rw [← Equiv.sum_comp (contrEquiv1 dot_S2048x1024_S2048x512_S1024x512_0_0_1_1_n_n 2048 rfl rfl).symm]
  refine Finset.sum_congr rfl fun r _ => ?_
  have c := contrEquiv1_symm_val dot_S2048x1024_S2048x512_S1024x512_0_0_1_1_n_n 2048 rfl rfl r
  have hl : dot_S2048x1024_S2048x512_S1024x512_0_0_1_1_n_n.lhsIdx (ix2 p q)
      ((contrEquiv1 dot_S2048x1024_S2048x512_S1024x512_0_0_1_1_n_n 2048 rfl rfl).symm r) = ix2 r p := by
    funext a; apply Fin.ext
    match a with
    | ⟨0, _⟩ => exact (lhs_sums_0 _ _).trans c
    | ⟨1, _⟩ => exact lhs_sums_1 _ _
  have hr : dot_S2048x1024_S2048x512_S1024x512_0_0_1_1_n_n.rhsIdx (ix2 p q)
      ((contrEquiv1 dot_S2048x1024_S2048x512_S1024x512_0_0_1_1_n_n 2048 rfl rfl).symm r) = ix2 r q := by
    funext a; apply Fin.ext
    match a with
    | ⟨0, _⟩ => exact (rhs_sums_0 _ _).trans c
    | ⟨1, _⟩ => exact rhs_sums_1 _ _
  rw [hl, hr]

/-- The counts product contracts the left operand's columns with the right operand's rows. -/
theorem lhs_counts_0 (j : S8x1024.Idx) (k : dot_S8x2048_S2048x1024_S8x1024_1_0_0_1_n_n.contr.Idx) :
    ((dot_S8x2048_S2048x1024_S8x1024_1_0_0_1_n_n.lhsIdx j k) 0).val = (j 0).val := by
  unfold DotDims.lhsIdx
  rw [dif_neg (show ¬(0 : Fin S8x2048.rank) ∈ dot_S8x2048_S2048x1024_S8x1024_1_0_0_1_n_n.lhsBatch by decide),
    dif_pos (show (0 : Fin S8x2048.rank) ∈ dot_S8x2048_S2048x1024_S8x1024_1_0_0_1_n_n.lhsNonContracting by decide)]
  rfl

theorem lhs_counts_1 (j : S8x1024.Idx) (k : dot_S8x2048_S2048x1024_S8x1024_1_0_0_1_n_n.contr.Idx) :
    ((dot_S8x2048_S2048x1024_S8x1024_1_0_0_1_n_n.lhsIdx j k) 1).val = (k ⟨0, by decide⟩).val :=
  dot_S8x2048_S2048x1024_S8x1024_1_0_0_1_n_n.lhsIdx_val_of_single rfl j k

theorem rhs_counts_0 (j : S8x1024.Idx) (k : dot_S8x2048_S2048x1024_S8x1024_1_0_0_1_n_n.contr.Idx) :
    ((dot_S8x2048_S2048x1024_S8x1024_1_0_0_1_n_n.rhsIdx j k) 0).val = (k ⟨0, by decide⟩).val :=
  dot_S8x2048_S2048x1024_S8x1024_1_0_0_1_n_n.rhsIdx_val_of_single rfl j k

theorem rhs_counts_1 (j : S8x1024.Idx) (k : dot_S8x2048_S2048x1024_S8x1024_1_0_0_1_n_n.contr.Idx) :
    ((dot_S8x2048_S2048x1024_S8x1024_1_0_0_1_n_n.rhsIdx j k) 1).val = (j 1).val := by
  unfold DotDims.rhsIdx
  rw [dif_neg (show ¬(1 : Fin S2048x1024.rank) ∈ dot_S8x2048_S2048x1024_S8x1024_1_0_0_1_n_n.rhsBatch by decide),
    dif_pos (show (1 : Fin S2048x1024.rank) ∈ dot_S8x2048_S2048x1024_S8x1024_1_0_0_1_n_n.rhsNonContracting by decide)]
  rfl

/-- The counts product into a zero accumulator, at (a, p): the sum over r of A[a, r] B[r, p]. -/
theorem counts_product_apply (A : FVec Ideal S8x2048 .bf16) (B : FVec Ideal S2048x1024 .bf16) (a : Fin 8) (p : Fin 1024) :
    matmul dot_S8x2048_S2048x1024_S8x1024_1_0_0_1_n_n none A B (constant (F := Ideal) S8x1024 .f32 0x00000000#32) (ix2 a p)
      = ∑ r : Fin 2048, A (ix2 a r) * B (ix2 r p) := by
  refine (Ideal.matmul_constant_zero_apply _ none _ _ _).trans ?_
  rw [← Equiv.sum_comp (contrEquiv1 dot_S8x2048_S2048x1024_S8x1024_1_0_0_1_n_n 2048 rfl rfl).symm]
  refine Finset.sum_congr rfl fun r _ => ?_
  have c := contrEquiv1_symm_val dot_S8x2048_S2048x1024_S8x1024_1_0_0_1_n_n 2048 rfl rfl r
  have hl : dot_S8x2048_S2048x1024_S8x1024_1_0_0_1_n_n.lhsIdx (ix2 a p)
      ((contrEquiv1 dot_S8x2048_S2048x1024_S8x1024_1_0_0_1_n_n 2048 rfl rfl).symm r) = ix2 a r := by
    funext x; apply Fin.ext
    match x with
    | ⟨0, _⟩ => exact lhs_counts_0 _ _
    | ⟨1, _⟩ => exact (lhs_counts_1 _ _).trans c
  have hr : dot_S8x2048_S2048x1024_S8x1024_1_0_0_1_n_n.rhsIdx (ix2 a p)
      ((contrEquiv1 dot_S8x2048_S2048x1024_S8x1024_1_0_0_1_n_n 2048 rfl rfl).symm r) = ix2 r p := by
    funext x; apply Fin.ext
    match x with
    | ⟨0, _⟩ => exact (rhs_counts_0 _ _).trans c
    | ⟨1, _⟩ => exact rhs_counts_1 _ _
  rw [hl, hr]

/-- The sums payload at (class `p`, column `q`): what was there plus the rows labelled `p`. -/
theorem pay4_apply (v3 : Vec Ideal S2048 .i32) (v11 v12 : Vec Ideal S2048x512 .f32) (v16 : Vec Ideal S1024x512 .f32) (p : Fin 1024) (q : Fin 512) :
    k0_pay4 (F := Ideal) v3 v11 v12 v16 (ix2 p q) = v16 (ix2 p q) + ∑ r : Fin 2048, hot v3 r p * (v11 (ix2 r q) + v12 (ix2 r q)) := by
  unfold k0_pay4
  show (shapeCast S1024x512 v16 shapeCasts_S1024x512_S1024x512) (ix2 p q)
      + matmul dot_S2048x1024_S2048x512_S1024x512_0_0_1_1_n_n none (k0_pay3 (F := Ideal) v3)
          (truncf .bf16 (addf v11 v12) bitsLt_bf16_f32) (constant (F := Ideal) S1024x512 .f32 0x00000000#32) (ix2 p q) = _
  rw [shapeCast_self, sums_product_apply]
  refine congrArg (v16 (ix2 p q) + ·) (Finset.sum_congr rfl fun r _ => ?_)
  rw [pay3_apply]
  rfl

/-- The counts payload at (slot row `a`, class `p`): what was there plus the number of rows labelled `p`. -/
theorem pay5_apply (v3 : Vec Ideal S2048 .i32) (v22 : Vec Ideal S8x1024 .f32) (a : Fin 8) (p : Fin 1024) :
    k0_pay5 (F := Ideal) v3 v22 (ix2 a p) = v22 (ix2 a p) + ∑ r : Fin 2048, hot v3 r p := by
  unfold k0_pay5
  show (shapeCast S8x1024 v22 shapeCasts_S8x1024_S8x1024) (ix2 a p)
      + matmul dot_S8x2048_S2048x1024_S8x1024_1_0_0_1_n_n none (broadcast S8x2048 (Scalar.ofBits (F := Ideal) .bf16 0x3F80#16))
          (k0_pay3 (F := Ideal) v3) (constant (F := Ideal) S8x1024 .f32 0x00000000#32) (ix2 a p) = _
  rw [shapeCast_self, counts_product_apply]
  refine congrArg (v22 (ix2 a p) + ·) (Finset.sum_congr rfl fun r _ => ?_)
  rw [pay3_apply, broadcast_apply]
  show Ideal.ofBits .bf16 0x3F80#16 * hot v3 r p = hot v3 r p
  rw [Ideal.ofBits_one_bf16, one_mul]

end Cert.KernelIdeal.KV

end
-- ==== Proof.KV.SumsFinal.lean ====
/-
  The sums array as the region leaves it, over the extended reals. The grid's point `t` has outer coordinate `t / 16`
  (which half of the 1024 feature columns) and inner coordinate `t % 16` (which tile of 2048 label rows). Within one
  half the accumulator is reset at the first tile and afterwards adds, for class `p` and column `q`, the rows of the
  tile labelled `p`, each contributing its entries in both crops; after the sixteenth tile it holds the sum over all
  32768 rows, and that block is written to columns `512·(t/16) …` of the array. The two halves' blocks tile the array.
-/
import proofs.«426958_j86199993630993_3_alg».proof.Proof.KI.Pieces
import proofs.«426958_j86199993630993_3_alg».proof.Proof.KV.Payload
import proofs.«426958_j86199993630993_3_alg».proof.Proof.Spec
import Idealize.ShloMosaic.Lib.Pipeline.Value

set_option maxRecDepth 16384

noncomputable section

namespace Cert.KernelIdeal.KV.Sums

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The printed index maps over the grid: point t has tile t % 16 and half t / 16. -/
theorem idx_facts : ∀ t : Fin cfg0.N, win0_0.index t (0 : Fin 1) = t.val % 16
    ∧ win0_1.index t (0 : Fin 2) = t.val % 16 ∧ win0_1.index t (1 : Fin 2) = t.val / 16
    ∧ win0_2.index t (0 : Fin 2) = 16 + t.val % 16 ∧ win0_2.index t (1 : Fin 2) = t.val / 16
    ∧ win0_3.index t (0 : Fin 2) = 0 ∧ win0_3.index t (1 : Fin 2) = t.val / 16 :=
  (by decide +kernel : ∀ t : Fin grid0.N, _)

/-- The labels array and the samples array, as the region finds them. -/
abbrev larr (c : Dev nD) : S32768.Idx → BitVec 32 := m ((c.tc : Thread nD τ).loc main_arg3)
abbrev xarr (c : Dev nD) : S65536x1024.Idx → EReal := m ((c.tc : Thread nD τ).loc main_arg0)

/-- Each input block at point t, at its literal type. -/
abbrev lblk (c : Dev nD) (t : Fin cfg0.N) : Vec Ideal S2048 .i32 := iblk m c 0 t
abbrev xblk1 (c : Dev nD) (t : Fin cfg0.N) : Vec Ideal S2048x512 .f32 := iblk m c 1 t
abbrev xblk2 (c : Dev nD) (t : Fin cfg0.N) : Vec Ideal S2048x512 .f32 := iblk m c 2 t

/-- The label block at point t: rows 2048·(t % 16) … of the labels. -/
theorem lblk_apply (c : Dev nD) (t : Fin cfg0.N) (r : Fin 2048) (R : Fin 32768) (hR : R.val = 2048 * (t.val % 16) + r.val) :
    lblk m c t (ix1 r) = larr m c (ix1 R) := by
  obtain ⟨e0, -⟩ := idx_facts t
  have hi : ((cfg0.win 0).blk t).view.emb (ix1 r) = ix1 R := funext fun a => Fin.ext (by
    match a with
    | ⟨0, _⟩ => show win0_0.index t (0 : Fin 1) * 2048 + 1 * r.val = R.val; rw [e0]; omega)
  exact congrArg (larr m c) hi

/-- The first crop's block at point t: rows 2048·(t % 16) …, columns 512·(t / 16) … of the samples. -/
theorem xblk1_apply (c : Dev nD) (t : Fin cfg0.N) (r : Fin 2048) (q : Fin 512) (R : Fin 65536) (Q : Fin 1024)
    (hR : R.val = 2048 * (t.val % 16) + r.val) (hQ : Q.val = 512 * (t.val / 16) + q.val) :
    xblk1 m c t (ix2 r q) = xarr m c (ix2 R Q) := by
  obtain ⟨-, e0, e1, -⟩ := idx_facts t
  have hi : ((cfg0.win 1).blk t).view.emb (ix2 r q) = ix2 R Q := funext fun a => Fin.ext (by
    match a with
    | ⟨0, _⟩ => show win0_1.index t (0 : Fin 2) * 2048 + 1 * r.val = R.val; rw [e0]; omega
    | ⟨1, _⟩ => show win0_1.index t (1 : Fin 2) * 512 + 1 * q.val = Q.val; rw [e1]; omega)
  exact congrArg (xarr m c) hi

/-- The second crop's block at point t: rows 32768 + 2048·(t % 16) …, the same columns. -/
theorem xblk2_apply (c : Dev nD) (t : Fin cfg0.N) (r : Fin 2048) (q : Fin 512) (R : Fin 65536) (Q : Fin 1024)
    (hR : R.val = 2048 * (t.val % 16) + r.val + 32768) (hQ : Q.val = 512 * (t.val / 16) + q.val) :
    xblk2 m c t (ix2 r q) = xarr m c (ix2 R Q) := by
  obtain ⟨-, -, -, e0, e1, -⟩ := idx_facts t
  have hi : ((cfg0.win 2).blk t).view.emb (ix2 r q) = ix2 R Q := funext fun a => Fin.ext (by
    match a with
    | ⟨0, _⟩ => show win0_2.index t (0 : Fin 2) * 2048 + 1 * r.val = R.val; rw [e0]; omega
    | ⟨1, _⟩ => show win0_2.index t (1 : Fin 2) * 512 + 1 * q.val = Q.val; rw [e1]; omega)
  exact congrArg (xarr m c) hi

/-! ## One row's contribution, and the sum as a sum over a range of rows -/

/-- Row r's contribution to class p's sum in column Q (nothing off the 32768 rows). -/
def contrib (l : S32768.Idx → BitVec 32) (x : S65536x1024.Idx → EReal) (p : ℕ) (Q : Fin 1024) (r : ℕ) : EReal :=
  if h : r < 32768 then
    (if Cert.Spec.hasLabel l ⟨r, h⟩ p then x (ix2 (Cert.Spec.row0 ⟨r, h⟩) Q) + x (ix2 (Cert.Spec.row1 ⟨r, h⟩) Q) else 0)
  else 0

/-- The class sum is the contributions of rows 0 … 32767. -/
theorem sumsG_eq_range (l : S32768.Idx → BitVec 32) (x : S65536x1024.Idx → EReal) (p : ℕ) (Q : Fin 1024) :
    Cert.Spec.sumsG l x p Q = ∑ r ∈ Finset.range 32768, contrib l x p Q r := by
  unfold Cert.Spec.sumsG
  rw [Finset.sum_range]
  refine Finset.sum_congr rfl fun r _ => ?_
  unfold contrib
  rw [dif_pos r.isLt]

/-- One tile's contraction is the contributions of its 2048 rows: the one-hot factor picks the rows labelled p. -/
theorem tile_eq (l : S32768.Idx → BitVec 32) (x : S65536x1024.Idx → EReal)
    (v3 : Vec Ideal S2048 .i32) (v11 v12 : Vec Ideal S2048x512 .f32) (p : Fin 1024) (q : Fin 512) (Q : Fin 1024) (s : ℕ) (hs : s < 16)
    (h3 : ∀ (r : Fin 2048) (R : Fin 32768), R.val = 2048 * s + r.val → v3 (ix1 r) = l (ix1 R))
    (h11 : ∀ (r : Fin 2048) (R : Fin 65536), R.val = 2048 * s + r.val → v11 (ix2 r q) = x (ix2 R Q))
    (h12 : ∀ (r : Fin 2048) (R : Fin 65536), R.val = 2048 * s + r.val + 32768 → v12 (ix2 r q) = x (ix2 R Q)) :
    ∑ r : Fin 2048, hot v3 r p * (v11 (ix2 r q) + v12 (ix2 r q)) = ∑ r ∈ Finset.range 2048, contrib l x p.val Q (2048 * s + r) := by
  rw [Finset.sum_range]
  refine Finset.sum_congr rfl fun r _ => ?_
  have hr : r.val < 2048 := r.isLt
  have hp : p.val < 2 ^ 31 := lt_trans p.isLt (by norm_num)
  have hlt : 2048 * s + r.val < 32768 := by omega
  have e3 := h3 r ⟨2048 * s + r.val, hlt⟩ rfl
  have e11 := h11 r ⟨2048 * s + r.val, by omega⟩ rfl
  have e12 := h12 r ⟨2048 * s + r.val + 32768, by omega⟩ rfl
  unfold contrib
  rw [dif_pos hlt]
  show (if v3 (ix1 r) = BitVec.ofNat 32 p.val then (1 : EReal) else 0) * (v11 (ix2 r q) + v12 (ix2 r q)) = _
  rw [e3, e11, e12, ite_mul, one_mul, zero_mul]
  exact (if_congr (Cert.Spec.toInt_eq_iff _ _ hp) rfl rfl).symm

/-! ## The accumulator, point by point -/

/-- A resetting point leaves the tile's contraction. -/
theorem step_A (c : Dev nD) (t : Fin cfg0.N) (h0 : t.val % 16 = 0) (p : Fin 1024) (q : Fin 512) :
    ((outsAt0 m c t.val t.isLt).1 : Vec Ideal S1024x512 .f32) (ix2 p q)
      = ∑ r : Fin 2048, hot (lblk m c t) r p * (xblk1 m c t (ix2 r q) + xblk2 m c t (ix2 r q)) := by
  rw [outsAt0_A m c t h0]
  dsimp only
  rw [out0_A_3_eq, pay4_apply, pay1_apply, zero_add]

/-- A carrying point adds the tile's contraction to what the point before left. -/
theorem step_B (c : Dev nD) (t : Fin cfg0.N) (h0 : ¬t.val % 16 = 0) (p : Fin 1024) (q : Fin 512) :
    ((outsAt0 m c t.val t.isLt).1 : Vec Ideal S1024x512 .f32) (ix2 p q)
      = ((outsAt0 m c (t.val - 1) (Nat.lt_of_le_of_lt (Nat.sub_le _ _) t.isLt)).1 : Vec Ideal S1024x512 .f32) (ix2 p q)
        + ∑ r : Fin 2048, hot (lblk m c t) r p * (xblk1 m c t (ix2 r q) + xblk2 m c t (ix2 r q)) := by
  rw [outsAt0_B m c t h0]
  dsimp only
  rw [out0_B_3_eq, pay4_apply]

/-- After point n the accumulator at (p, q) holds the contributions of the rows of the tiles 0 … n % 16, in column
    512·(n / 16) + q. -/
theorem acc_eq (c : Dev nD) (n : ℕ) : ∀ (hn : n < cfg0.N) (p : Fin 1024) (q : Fin 512) (Q : Fin 1024), Q.val = 512 * (n / 16) + q.val →
    ((outsAt0 m c n hn).1 : Vec Ideal S1024x512 .f32) (ix2 p q)
      = ∑ r ∈ Finset.range (2048 * (n % 16 + 1)), contrib (larr m c) (xarr m c) p.val Q r := by
  induction n using Nat.strong_induction_on with
  | _ n ih =>
    intro hn p q Q hQ
    have hN : n < 32 := lt_of_lt_of_eq hn (show cfg0.N = 32 from N_0)
    have htile := tile_eq (larr m c) (xarr m c) (lblk m c ⟨n, hn⟩) (xblk1 m c ⟨n, hn⟩) (xblk2 m c ⟨n, hn⟩) p q Q (n % 16) (Nat.mod_lt _ (by norm_num))
      (fun r R hR => lblk_apply m c ⟨n, hn⟩ r R hR)
      (fun r R hR => xblk1_apply m c ⟨n, hn⟩ r q R Q hR hQ)
      (fun r R hR => xblk2_apply m c ⟨n, hn⟩ r q R Q hR hQ)
    have esplit : 2048 * (n % 16 + 1) = 2048 * (n % 16) + 2048 := by omega
    rw [esplit, Finset.sum_range_add]
    by_cases h0 : n % 16 = 0
    · refine (step_A m c ⟨n, hn⟩ h0 p q).trans ?_
      have hz : ∑ r ∈ Finset.range (2048 * (n % 16)), contrib (larr m c) (xarr m c) p.val Q r = 0 := by
        rw [h0, Nat.mul_zero, Finset.range_zero, Finset.sum_empty]
      rw [hz, zero_add]
      exact htile
    · refine (step_B m c ⟨n, hn⟩ h0 p q).trans ?_
      have e : (n - 1) % 16 + 1 = n % 16 := by omega
      have hprev := ih (n - 1) (by omega) (Nat.lt_of_le_of_lt (Nat.sub_le _ _) hn) p q Q (by omega)
      rw [e] at hprev
      exact congrArg₂ (· + ·) hprev htile

/-! ## The write-back and the array -/

/-- The sums array: class (row) by column. -/
abbrev sumsArr (c : Dev nD) : S1024x1024.Idx → EReal := fun i => Cert.Spec.sumsG (larr m c) (xarr m c) (i 0).val (i 1)

/-- The accumulator window's blocks are never cut: the part written back is the whole block. -/
theorem cut3_apply (t : Fin cfg0.N) (X : Vec Ideal S1024x512 .f32) (p : Fin 1024) (q : Fin 512) :
    (cfg0.win 3).cut (grid0.coords t) X (ix2 p q) = X (ix2 p q) :=
  congrArg X (funext fun a => by match a with | ⟨0, _⟩ => rfl | ⟨1, _⟩ => rfl)

/-- Point t's block of the sums array, read at (p, q): any array G at (p, 512·(t / 16) + q). -/
theorem blk3_read_apply (G : S1024x1024.Idx → EReal) (t : Fin cfg0.N) (p : Fin 1024) (q : Fin 512) (Q : Fin 1024)
    (hQ : Q.val = 512 * (t.val / 16) + q.val) :
    ((cfg0.win 3).blk t).view.read (Elt Ideal) G (ix2 p q) = G (ix2 p Q) := by
  obtain ⟨-, -, -, -, -, e0, e1⟩ := idx_facts t
  have hi : ((cfg0.win 3).blk t).view.emb (ix2 p q) = ix2 p Q := funext fun a => Fin.ext (by
    match a with
    | ⟨0, _⟩ => show win0_3.index t (0 : Fin 2) * 1024 + 1 * p.val = p.val; rw [e0]; omega
    | ⟨1, _⟩ => show win0_3.index t (1 : Fin 2) * 512 + 1 * q.val = Q.val; rw [e1]; omega)
  exact congrArg G hi

/-- What a write-back writes (after the sixteenth tile of a half): that half's columns of the sums array. -/
theorem flushed_eq (c : Dev nD) (t : Fin cfg0.N) (hf : (cfg0.win 3).flush t = true) :
    (dats (F := Ideal) m 0 c).flushed 3 t = ((cfg0.win 3).blk t).view.read (Elt Ideal) (sumsArr m c) := by
  have h15 : t.val % 16 = 15 := (flush0_3 t).mp hf
  have hN : t.val < 32 := lt_of_lt_of_eq t.isLt (show cfg0.N = 32 from N_0)
  show (cfg0.win 3).cut (grid0.coords t) ((dats (F := Ideal) m 0 c).after 3 t) = _
  rw [after0_3]
  funext j
  obtain ⟨p, q, rfl⟩ : ∃ (p : Fin 1024) (q : Fin 512), j = ix2 p q := ⟨j 0, j 1, eq_ix2 j⟩
  have hq : q.val < 512 := q.isLt
  have hQ : 512 * (t.val / 16) + q.val < 1024 := by omega
  refine (cut3_apply t _ p q).trans ?_
  refine Eq.trans ?_ (blk3_read_apply (sumsArr m c) t p q ⟨512 * (t.val / 16) + q.val, hQ⟩ rfl).symm
  have e16 : 2048 * (15 + 1) = 32768 := by norm_num
  rw [acc_eq m c t.val t.isLt p q ⟨512 * (t.val / 16) + q.val, hQ⟩ rfl, h15, e16]
  exact (sumsG_eq_range (larr m c) (xarr m c) p.val ⟨512 * (t.val / 16) + q.val, hQ⟩).symm

/-- An index of the array is in point t's block iff each coordinate is in the block's range on its axis. -/
theorem mem_blk (t : Fin cfg0.N) (i : S1024x1024.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0_0).slice (win0_3.rect t)).set ↔ _
  rw [View.set_slice_whole, Rect.mem_set_unit]
  exact Iff.rfl

/-- The two write-backs' blocks tile the array: column Q lies in the block written after the sixteenth tile of half Q / 512. -/
theorem cover (i : S1024x1024.Idx) : ∃ t : Fin cfg0.N, (cfg0.win 3).flush t = true ∧ i ∈ ((cfg0.win 3).blk t).view.set := by
  have hi0 : (i 0).val < 1024 := (i 0).isLt
  have hi1 : (i 1).val < 1024 := (i 1).isLt
  have hN : cfg0.N = 32 := N_0
  refine ⟨⟨16 * ((i 1).val / 512) + 15, by omega⟩, (flush0_3 _).mpr (by dsimp only; omega), ?_⟩
  obtain ⟨-, -, -, -, -, e0, e1⟩ := idx_facts ⟨16 * ((i 1).val / 512) + 15, by omega⟩
  rw [mem_blk]
  intro a
  match a with
  | ⟨0, _⟩ =>
    show win0_3.index _ (0 : Fin 2) * 1024 ≤ (i 0).val ∧ (i 0).val < win0_3.index _ (0 : Fin 2) * 1024 + 1024
    rw [e0]; omega
  | ⟨1, _⟩ =>
    show win0_3.index _ (1 : Fin 2) * 512 ≤ (i 1).val ∧ (i 1).val < win0_3.index _ (1 : Fin 2) * 512 + 512
    rw [e1]; dsimp only; omega

/-- The sums array after the region. -/
theorem final (c : Dev nD) : (dats (F := Ideal) m 0 c).arrAt 3 cfg0.N = sumsArr m c :=
  (dats (F := Ideal) m 0 c).arrAt_eq_of_cover 3 (sumsArr m c) (fun t hf => flushed_eq m c t hf) cover

end Cert.KernelIdeal.KV.Sums

namespace Cert.KernelIdeal.KV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- Every entry of the sums array is that class's and column's sum. -/
theorem sumsFull_apply (c : Dev nD) (p q : Fin 1024) :
    ((dats (F := Ideal) m 0 c).arrAt 3 cfg0.N : S1024x1024.Idx → EReal) (ix2 p q)
      = Cert.Spec.sumsG (m ((c.tc : Thread nD τ).loc main_arg3)) (m ((c.tc : Thread nD τ).loc main_arg0)) p.val q := by
  rw [Sums.final m c]

end Cert.KernelIdeal.KV

end
-- ==== Proof.KV.CountsFinal.lean ====
/-
  The counts array as the region leaves it, over the extended reals. Each of the two halves of the grid (outer
  coordinate `t / 16`) keeps its own eight-row slot of the array; within a half the accumulator is reset at the first
  tile and afterwards adds, in every one of its eight rows, for class `p` the number of rows of the tile labelled `p`;
  after the sixteenth tile it holds the count over all 32768 rows, and the slot is written back. The two slots tile the
  array, so every row of it holds the counts.
-/
import proofs.«426958_j86199993630993_3_alg».proof.Proof.KI.Pieces
import proofs.«426958_j86199993630993_3_alg».proof.Proof.KV.Payload
import proofs.«426958_j86199993630993_3_alg».proof.Proof.Spec
import Idealize.ShloMosaic.Lib.Pipeline.Value

set_option maxRecDepth 16384

noncomputable section

namespace Cert.KernelIdeal.KV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

namespace Counts

/-- The labels as the region finds them, and the tile of 2048 of them a grid point reads. -/
abbrev labels (c : Dev nD) : S32768.Idx → BitVec 32 := m ((c.tc : Thread nD τ).loc main_arg3)
abbrev tile (c : Dev nD) (t : Fin cfg0.N) : Vec Ideal S2048 .i32 := iblk m c 0 t

/-- Row `r` of tile `s` is row `2048 s + r` of the labels (the tile number taken below sixteen). -/
abbrev rowOf (s : ℕ) (r : Fin 2048) : Fin 32768 := ⟨s % 16 * 2048 + r.val, by have := r.isLt; have := Nat.mod_lt s (show 0 < 16 by decide); omega⟩

/-- The labels window steps through the sixteen tiles along the inner grid coordinate. -/
theorem tile_index : ∀ t : Fin cfg0.N, win0_0.index t (0 : Fin 1) = t.val % 16 :=
  (by decide +kernel : ∀ t : Fin grid0.N, win0_0.index t (0 : Fin 1) = t.val % 16)

/-- A point's tile, entry by entry, off the labels. -/
theorem tile_apply (c : Dev nD) (t : Fin cfg0.N) (r : Fin 2048) :
    tile m c t (ix1 r) = labels m c (ix1 (rowOf t.val r)) := by
  unfold tile iblk
  rw [View.read_apply]
  show V m c main_arg3 _ = V m c main_arg3 _
  congr 1
  funext a; apply Fin.ext
  match a with
  | ⟨0, _⟩ =>
    show win0_0.index t (0 : Fin 1) * 2048 + 1 * r.val = t.val % 16 * 2048 + r.val
    rw [tile_index t]; omega

/-- A sum over the 32768 rows, tile by tile. -/
theorem sum_rows_by_tile (f : Fin 32768 → EReal) :
    ∑ k : Fin 32768, f k = ∑ s : Fin 16, ∑ r : Fin 2048, f (rowOf s.val r) := by
  rw [← (finProdFinEquiv (m := 16) (n := 2048)).sum_comp f, Fintype.sum_prod_type]
  refine Finset.sum_congr rfl fun s _ => Finset.sum_congr rfl fun r _ => congrArg f (Fin.ext ?_)
  show r.val + 2048 * s.val = s.val % 16 * 2048 + r.val
  have := s.isLt
  rw [Nat.mod_eq_of_lt this]; omega

end Counts

namespace Counts

/-- The number of rows of tile `s` labelled `p` (by the word test). -/
def tileCount (c : Dev nD) (s : ℕ) (p : Fin 1024) : EReal :=
  ∑ r : Fin 2048, if labels m c (ix1 (rowOf s r)) = BitVec.ofNat 32 p.val then (1 : EReal) else 0

/-- Only the tile number below sixteen matters. -/
theorem tileCount_mod (c : Dev nD) (s : ℕ) (p : Fin 1024) : tileCount m c (s % 16) p = tileCount m c s p := by
  unfold tileCount
  refine Finset.sum_congr rfl fun r _ => ?_
  rw [show rowOf (s % 16) r = rowOf s r from Fin.ext (by
    show s % 16 % 16 * 2048 + r.val = s % 16 * 2048 + r.val
    rw [Nat.mod_mod])]

/-- The ones row contracted with a point's one-hot block counts the point's tile. -/
theorem hot_sum (c : Dev nD) (t : Fin cfg0.N) (p : Fin 1024) :
    ∑ r : Fin 2048, hot (tile m c t) r p = tileCount m c t.val p := by
  unfold tileCount
  refine Finset.sum_congr rfl fun r _ => ?_
  show (if tile m c t (ix1 r) = BitVec.ofNat 32 p.val then (1 : EReal) else 0) = _
  rw [tile_apply]

/-- At a resetting point every row of the accumulator is left at the point's tile count. -/
theorem reset_apply (c : Dev nD) (t : Fin cfg0.N) (h0 : t.val % 16 = 0) (a : Fin 8) (p : Fin 1024) :
    (outsAt0 m c t.val t.isLt).2 (ix2 a p) = tileCount m c t.val p := by
  rw [outsAt0_A m c t h0]
  dsimp only
  refine (congrFun (out0_A_4_eq (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (iblk m c 0 t) (iblk m c 1 t) (iblk m c 2 t)) (ix2 a p)).trans ?_
  refine (pay5_apply (tile m c t) (k0_pay2 (F := Ideal)) a p).trans ?_
  rw [pay2_apply, zero_add, hot_sum]

/-- At a carrying point the tile count is added to what the point before left. -/
theorem carry_apply (c : Dev nD) (t : Fin cfg0.N) (h0 : ¬t.val % 16 = 0) (a : Fin 8) (p : Fin 1024) :
    (outsAt0 m c t.val t.isLt).2 (ix2 a p)
      = (outsAt0 m c (t.val - 1) (Nat.lt_of_le_of_lt (Nat.sub_le _ _) t.isLt)).2 (ix2 a p) + tileCount m c t.val p := by
  rw [outsAt0_B m c t h0]
  dsimp only
  refine (congrFun (out0_B_4_eq (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (iblk m c 0 t) (iblk m c 1 t) (iblk m c 2 t)
    (outsAt0 m c (t.val - 1) (Nat.lt_of_le_of_lt (Nat.sub_le _ _) t.isLt)).1
    (outsAt0 m c (t.val - 1) (Nat.lt_of_le_of_lt (Nat.sub_le _ _) t.isLt)).2) (ix2 a p)).trans ?_
  refine (pay5_apply (tile m c t) (outsAt0 m c (t.val - 1) (Nat.lt_of_le_of_lt (Nat.sub_le _ _) t.isLt)).2 a p).trans ?_
  rw [hot_sum]

/-- After point `n` every row of the accumulator holds the counts of the tiles of its half so far. -/
theorem counts_at (c : Dev nD) : ∀ (n : ℕ) (hn : n < cfg0.N) (a : Fin 8) (p : Fin 1024),
    (outsAt0 m c n hn).2 (ix2 a p) = ∑ s ∈ Finset.range (n % 16 + 1), tileCount m c s p := by
  intro n
  induction n with
  | zero =>
    intro hn a p
    refine (reset_apply m c ⟨0, hn⟩ rfl a p).trans ?_
    show tileCount m c 0 p = ∑ s ∈ Finset.range 1, tileCount m c s p
    rw [Finset.sum_range_one]
  | succ k ih =>
    intro hn a p
    by_cases h0 : (k + 1) % 16 = 0
    · refine (reset_apply m c ⟨k + 1, hn⟩ h0 a p).trans ?_
      show tileCount m c (k + 1) p = _
      rw [h0, Finset.sum_range_one, ← tileCount_mod m c (k + 1) p, h0]
    · refine (carry_apply m c ⟨k + 1, hn⟩ h0 a p).trans ?_
      show (outsAt0 m c k (Nat.lt_of_le_of_lt (Nat.sub_le (k + 1) 1) hn)).2 (ix2 a p) + tileCount m c (k + 1) p = _
      have e : (k + 1) % 16 = k % 16 + 1 := by omega
      rw [ih, e, Finset.sum_range_succ _ (k % 16 + 1), ← tileCount_mod m c (k + 1) p, e]

/-- After the sixteenth tile of a half: the count over all 32768 rows. -/
theorem counts_full (c : Dev nD) (n : ℕ) (hn : n < cfg0.N) (h15 : n % 16 = 15) (a : Fin 8) (p : Fin 1024) :
    (outsAt0 m c n hn).2 (ix2 a p) = Cert.Spec.countG (labels m c) p.val := by
  rw [counts_at, h15]
  unfold Cert.Spec.countG
  rw [sum_rows_by_tile, Finset.sum_range]
  refine Finset.sum_congr rfl fun s _ => ?_
  unfold tileCount
  refine Finset.sum_congr rfl fun r _ => ?_
  exact if_congr (Cert.Spec.toInt_eq_iff _ _ (by have := p.isLt; omega)).symm rfl rfl

end Counts

namespace Counts

/-- The same at any index of the accumulator. -/
theorem counts_full_idx (c : Dev nD) (n : ℕ) (hn : n < cfg0.N) (h15 : n % 16 = 15) (j : S8x1024.Idx) :
    (outsAt0 m c n hn).2 j = Cert.Spec.countG (labels m c) (j 1).val := by
  obtain ⟨a, p, rfl⟩ : ∃ (a : Fin 8) (p : Fin 1024), j = ix2 a p := ⟨j 0, j 1, eq_ix2 j⟩
  exact counts_full m c n hn h15 a p

/-- What the counts array ends holding: in every row, each class's count. -/
abbrev full (c : Dev nD) : S16x1024.Idx → EReal := fun i => Cert.Spec.countG (labels m c) (i 1).val

/-- The counts window takes the eight-row slot of the point's half, and all 1024 columns. -/
theorem slot_index : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

set_option maxRecDepth 65536 in
/-- What a half's last point writes back is its slot of that array. -/
theorem flushed_eq (c : Dev nD) (t : Fin cfg0.N) (hf : (cfg0.win 4).flush t = true) :
    (dats (F := Ideal) m 0 c).flushed 4 t = ((cfg0.win 4).blk t).view.read (Elt Ideal) (full m c) := by
  have h15 : t.val % 16 = 15 := (flush0_4 t).mp hf
  obtain ⟨e0, e1⟩ := slot_index t
  show (cfg0.win 4).cut (grid0.coords t) ((dats (F := Ideal) m 0 c).after 4 t) = _
  rw [after0_4]
  funext j
  rw [View.read_apply]
  refine (counts_full_idx m c t.val t.isLt h15 j).trans ?_
  refine congrArg (Cert.Spec.countG (labels m c)) ?_
  show (j 1).val = win0_4.index t (1 : Fin 2) * 1024 + 1 * (j 1).val
  rw [e1]; omega

/-- An entry of the array is in a point's slot iff each coordinate is in the slot's range. -/
theorem mem_slot (t : Fin cfg0.N) (i : S16x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v0_1).slice (win0_4.rect t)).set ↔ _
  rw [View.set_slice_whole, Rect.mem_set_unit]
  exact Iff.rfl

/-- The two slots tile the array: row `i₀` is in the slot written back at the last point of half `i₀ / 8`. -/
theorem cover (i : S16x1024.Idx) : ∃ t : Fin cfg0.N, (cfg0.win 4).flush t = true ∧ i ∈ ((cfg0.win 4).blk t).view.set := by
  have hi0 : (i 0).val < 16 := (i 0).isLt
  have hi1 : (i 1).val < 1024 := (i 1).isLt
  have hN : cfg0.N = 32 := N_0
  obtain ⟨t, ht⟩ : ∃ t : Fin cfg0.N, t.val = (i 0).val / 8 * 16 + 15 := ⟨⟨(i 0).val / 8 * 16 + 15, by rw [hN]; omega⟩, rfl⟩
  obtain ⟨e0, e1⟩ := slot_index t
  refine ⟨t, (flush0_4 t).mpr (by omega), ?_⟩
  rw [mem_slot]
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 1024 ≤ (i 1).val ∧ (i 1).val < win0_4.index t (1 : Fin 2) * 1024 + 1024
    omega

end Counts

/-- Every entry of the counts array is that class's count. -/
theorem countsFull_apply (c : Dev nD) (a : Fin 16) (p : Fin 1024) :
    ((dats (F := Ideal) m 0 c).arrAt 4 cfg0.N : S16x1024.Idx → EReal) (ix2 a p)
      = Cert.Spec.countG (m ((c.tc : Thread nD τ).loc main_arg3)) p.val := by
  have h := (dats (F := Ideal) m 0 c).arrAt_eq_of_cover 4 (Counts.full m c) (Counts.flushed_eq m c) Counts.cover
  exact congrFun h (ix2 a p)

end Cert.KernelIdeal.KV

end
-- ==== Proof.lean ====
/-
  Per-class feature sums by a one-hot matrix product over two crops folded together, against the reference's scatter.

  The kernel adds, label tile by label tile (sixteen tiles of 2048 rows, for each half of the 1024 feature columns),
  the product of the transposed one-hot block of the tile's labels with the sum of the two crops' sample blocks, and in
  the same pass counts the labels by a product of a row of ones with the one-hot block; the host then keeps the first
  thousand classes, doubles the counts (each label stands for a row in each crop), and computes the centre update and
  the loss. The reference tiles the labels twice and scatters, accumulating, the 65536 sample rows and 65536 ones into
  a thousand zero rows, and computes the same update and loss from there on.

  Over the extended reals the two agree for EVERY label vector: a label outside 0 … 999 is read signed and lands
  nowhere in the reference's scatter, and in the kernel it matches no class column below 1000 (the columns 1000 … 1023 of
  the padded one-hot block are cut away), so both drop it; for a class p the kernel's sum over the rows r labelled p of
  x[r, q] + x[32768 + r, q] is the reference's sum over the rows of both crops labelled p, and its doubled count is the
  reference's count. No finiteness is used: only that a sum of sums may be regrouped and that 0 · v = 0, 1 · v = v.
  From the sums and counts on the two programs apply one and the same function (the shared tail).

  The three frames: the two kernel programs run their one pipelined region and the seven host stretches after it (the
  two crop windows read one array, held at two half shares through the region); the reference is a line of host
  operations. The idealization rewrote nothing, so there is nothing to preserve.
-/
import proofs.«426958_j86199993630993_3_alg».proof.Defs
import proofs.«426958_j86199993630993_3_alg».proof.Proof.Gen.Kernel
import proofs.«426958_j86199993630993_3_alg».proof.Proof.Gen.KernelIdeal
import proofs.«426958_j86199993630993_3_alg».proof.Proof.Gen.ReferenceIdeal
import proofs.«426958_j86199993630993_3_alg».proof.Proof.Gen.Pre_finite_inputs
import proofs.«426958_j86199993630993_3_alg».proof.Proof.K.Frame
import proofs.«426958_j86199993630993_3_alg».proof.Proof.KI.Result
import proofs.«426958_j86199993630993_3_alg».proof.Proof.Bridge
import proofs.«426958_j86199993630993_3_alg».proof.Proof.KV.SumsFinal
import proofs.«426958_j86199993630993_3_alg».proof.Proof.KV.CountsFinal
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ

theorem frame_pi : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the shared tail of the same sums and counts and of the same centre tables. -/
theorem algebraic : Cert.algebraic_KernelIdeal_ReferenceIdeal := by
  intro m ρ m' ρ' _ hagree
  refine ⟨fun c => Cert.KernelIdeal.Hand.W7 m c (Proc.devRef .tc Cert.KernelIdeal.main_v30), ?_, ?_⟩
  · exact (θ_run Cert.KernelIdeal.defs _ _).mono (fun r h c =>
      ⟨h c Cert.KernelIdeal.main_v30 rfl,
       (h c Cert.KernelIdeal.main_arg0 rfl).trans (Cert.KernelIdeal.Hand.W7_arg0 m c),
       (h c Cert.KernelIdeal.main_arg1 rfl).trans (Cert.KernelIdeal.Hand.W7_arg1 m c),
       (h c Cert.KernelIdeal.main_arg2 rfl).trans (Cert.KernelIdeal.Hand.W7_arg2 m c),
       (h c Cert.KernelIdeal.main_arg3 rfl).trans (Cert.KernelIdeal.Hand.W7_arg3 m c)⟩)
      (Cert.KernelIdeal.Hand.run_main m ρ)
  · refine (θ_run Cert.ReferenceIdeal.defs _ _).mono (fun _ h c => ⟨(h c).1.trans ?_, (h c).2⟩)
      (Cert.ReferenceIdeal.ValueP.run (F := Ideal) m' ρ')
    show _ = Cert.KernelIdeal.Hand.W7 m c (Proc.devRef .tc Cert.KernelIdeal.main_v30)
    rw [Cert.ReferenceIdeal.RefValue.res_eq, (hagree c).1, (hagree c).2.1, (hagree c).2.2.1, (hagree c).2.2.2, Cert.KernelIdeal.Hand.W7_res,
      Cert.Proof.Bridge.sums_bridge_of (Cert.KernelIdeal.Hand.sumsFull m c) (m ((c.tc : Thread Cert.KernelIdeal.nD Cert.KernelIdeal.τ).loc Cert.KernelIdeal.main_arg3))
        (m ((c.tc : Thread Cert.KernelIdeal.nD Cert.KernelIdeal.τ).loc Cert.KernelIdeal.main_arg0)) (fun p q => Cert.KernelIdeal.KV.sumsFull_apply m c p q),
      Cert.Proof.Bridge.counts_bridge_of (Cert.KernelIdeal.Hand.countsFull m c) (m ((c.tc : Thread Cert.KernelIdeal.nD Cert.KernelIdeal.τ).loc Cert.KernelIdeal.main_arg3))
        (fun a p => Cert.KernelIdeal.KV.countsFull_apply m c a p)]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
